-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000x17 : Shape := ⟨2, ![800000, 17]⟩
abbrev S96x17 : Shape := ⟨2, ![96, 17]⟩
abbrev S96 : Shape := ⟨1, ![96]⟩
abbrev S96x96 : Shape := ⟨2, ![96, 96]⟩
abbrev S_ : Shape := ⟨0, ![]⟩
abbrev S1x800000 : Shape := ⟨2, ![1, 800000]⟩
abbrev S800000 : Shape := ⟨1, ![800000]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x17 : S_.BroadcastsInDim S800000x17 (![] : Fin 0 → Fin S800000x17.rank)
  reducesTo_S800000x17_S_d0_1 : S800000x17.ReducesTo [0, 1] S_
  bcast_S_S96x17 : S_.BroadcastsInDim S96x17 (![] : Fin 0 → Fin S96x17.rank)
  reducesTo_S96x17_S_d0_1 : S96x17.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_v53 : IVec S1x800000 32 := (extractStridedSlice S1x800000 ![0, 0] · slices_S2x800000_S1x800000_0_0) main_arg1
  let main_v54 : IVec S800000 32 := shapeCast S800000 main_v53 shapeCasts_S1x800000_S800000
  let main_c_19 : IVec S_ 32 := constantI S_ 32 50000#32
  let main_v55 : IVec S800000 32 := broadcastInDim S800000 ![] bcast_S_S800000 main_c_19
  let main_v56 : IVec S800000 1 := cmpi .slt main_v54 main_v55
  let main_v57 : IVec S800000 1 := andi main_v52 main_v56
  let main_c_20 : IVec S_ 1 := constantI S_ 1 1#1
  let main_v58 : IVec S_ 1 := (fun x v => Host.reduce IntOp.andi x v reducesTo_S800000_S_d0 h_S_) main_v57 main_c_20
  let main_v59 : IVec S_ 1 := andi main_v48 main_v58
  main_v59

def fn_part2 {F : FTy → Type} [FloatOps F] (main_arg1 : IVec S2x800000 32) (main_arg8 : FVec F S96 .f32) (main_arg9 : FVec F S96x96 .f32) (main_arg10 : FVec F S96 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x96 .f32 := Host.absf main_arg9
  let main_cst_14 : FVec F S_ .f32 := constant S_ .f32 0x7F800000#32
  let main_v40 : FVec F S96x96 .f32 := broadcastInDim S96x96 ![] bcast_S_S96x96 main_cst_14
  let main_v41 : IVec S96x96 1 := cmpf .olt main_v39 main_v40
  let main_c_15 : IVec S_ 1 := constantI S_ 1 1#1
  let main_v42 : IVec S_ 1 := (fun x v => Host.reduce IntOp.andi x v reducesTo_S96x96_S_d0_1 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 4294917296#32
  fn_part3 (F := F) main_arg1 main_v48 main_v50 main_c_18

def fn_part1 {F : FTy → Type} [FloatOps F] (main_arg1 : IVec S2x800000 32) (main_arg5 : FVec F S96x96 .f32) (main_arg6 : FVec F S96 .f32) (main_arg7 : FVec F S96x96 .f32) (main_arg8 : FVec F S96 .f32) (main_arg9 : FVec F S96x96 .f32) (main_arg10 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg7
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x96 .f32) (main_arg1 : IVec S2x800000 32) (main_arg2 : FVec F S800000x17 .f32) (main_arg3 : FVec F S96x17 .f32) (main_arg4 : FVec F S96 .f32) (main_arg5 : FVec F S96x96 .f32) (main_arg6 : FVec F S96 .f32) (main_arg7 : FVec F S96x96 .f32) (main_arg8 : FVec F S96 .f32) (main_arg9 : FVec F S96x96 .f32) (main_arg10 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x17 .f32 := Host.absf main_arg2
  let main_cst_0 : FVec F S_ .f32 := constant S_ .f32 0x7F800000#32
  let main_v5 : FVec F S800000x17 .f32 := broadcastInDim S800000x17 ![] bcast_S_S800000x17 main_cst_0
  let main_v6 : IVec S800000x17 1 := cmpf .olt main_v4 main_v5
  let main_c_1 : IVec S_ 1 := constantI S_ 1 1#1
  let main_v7 : IVec S_ 1 := (fun x v => Host.reduce IntOp.andi x v reducesTo_S800000x17_S_d0_1 h_S_) main_v6 main_c_1
  let main_v8 : IVec S_ 1 := andi main_v3 main_v7
  let main_v9 : FVec F S96x17 .f32 := Host.absf main_arg3
  let main_cst_2 : FVec F S_ .f32 := constant S_ .f32 0x7F800000#32
  let main_v10 : FVec F S96x17 .f32 := broadcastInDim S96x17 ![] bcast_S_S96x17 main_cst_2
  let main_v11 : IVec S96x17 1 := cmpf .olt main_v9 main_v10
  let main_c_3 : IVec S_ 1 := constantI S_ 1 1#1
  let main_v12 : IVec S_ 1 := (fun x v => Host.reduce IntOp.andi x v reducesTo_S96x17_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg1 main_arg5 main_arg6 main_arg7 main_arg8 main_arg9 main_arg10 main_v13 main_v16
-- ==== Kernel.lean ====
abbrev S50000x96 : Shape := ⟨2, ![50000, 96]⟩
abbrev S2x800000 : Shape := ⟨2, ![2, 800000]⟩
abbrev S800000x17 : Shape := ⟨2, ![800000, 17]⟩
abbrev S96x17 : Shape := ⟨2, ![96, 17]⟩
abbrev S96 : Shape := ⟨1, ![96]⟩
abbrev S96x96 : Shape := ⟨2, ![96, 96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x96 : Shape := ⟨2, ![800000, 96]⟩
abbrev S17x96 : Shape := ⟨2, ![17, 96]⟩
abbrev S1x96 : Shape := ⟨2, ![1, 96]⟩
abbrev S5000x17 : Shape := ⟨2, ![5000, 17]⟩
abbrev S5000x96 : Shape := ⟨2, ![5000, 96]⟩

abbrev nBuf : Space → Nat
  | .hbm => 52
  | .vmem => 20
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x17, .f32⟩
  | .hbm, ⟨3, _⟩ => ⟨S96x17, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S96x96, .f32⟩
  | .hbm, ⟨10, _⟩ => ⟨S96, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x96, .f32⟩
  | .hbm, ⟨34, _⟩ => ⟨S800000x96, .i1⟩
  | .hbm, ⟨35, _⟩ => ⟨S_, .f32⟩
  | .hbm, ⟨36, _⟩ => ⟨S800000x96, .f32⟩
  | .hbm, ⟨37, _⟩ => ⟨S800000x96, .f32⟩
  | .hbm, ⟨38, _⟩ => ⟨S17x96, .f32⟩
  | .hbm, ⟨39, _⟩ => ⟨S96x96, .f32⟩
  | .hbm, ⟨40, _⟩ => ⟨S96x96, .f32⟩
  | .hbm, ⟨41, _⟩ => ⟨S96x96, .f32⟩
  | .hbm, ⟨42, _⟩ => ⟨S1x96, .f32⟩
  | .hbm, ⟨43, _⟩ => ⟨S1x96, .f32⟩
  | .hbm, ⟨44, _⟩ => ⟨S1x96, .f32⟩
  | .hbm, ⟨45, _⟩ => ⟨S1x96, .f32⟩
  | .hbm, ⟨46, _⟩ => ⟨S800000x96, .f32⟩
  | .hbm, ⟨47, _⟩ => ⟨S_, .f32⟩
  | .hbm, ⟨48, _⟩ => ⟨S50000x96, .f32⟩
  | .hbm, ⟨49, _⟩ => ⟨S800000x1, .i32⟩
  | .hbm, ⟨50, _⟩ => ⟨S50000x96, .f32⟩
  | .hbm, ⟨51, _⟩ => ⟨S50000x96, .f32⟩
  | .local _ .vmem, ⟨0, _⟩ => ⟨S5000x17, .f32⟩
  | .local _ .vmem, ⟨1, _⟩ => ⟨S5000x17, .f32⟩
  | .local _ .vmem, ⟨2, _⟩ => ⟨S5000x96, .f32⟩
  | .local _ .vmem, ⟨3, _⟩ => ⟨S5000x96, .f32⟩
  | .local _ .vmem, ⟨4, _⟩ => ⟨S17x96, .f32⟩
  | .local _ .vmem, ⟨5, _⟩ => ⟨S1x96, .f32⟩
  | .local _ .vmem, ⟨6, _⟩ => ⟨S96x96, .f32⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S96x96, .f32⟩
  | .local _ .vmem, ⟨15, _⟩ => ⟨S1x96, .f32⟩
  | .local _ .vmem, ⟨16, _⟩ => ⟨S96x96, .f32⟩
  | .local _ .vmem, ⟨17, _⟩ => ⟨S1x96, .f32⟩
  | .local _ .vmem, ⟨18, _⟩ => ⟨S5000x96, .f32⟩
  | .local _ .vmem, ⟨19, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S17x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x96_0 : S800000.BroadcastsInDim S800000x96 (![0] : Fin 1 → Fin S800000x96.rank)
  bcast_S_S800000x96 : S_.BroadcastsInDim S800000x96 (![] : Fin 0 → Fin S800000x96.rank)
  transposes_S96x17_S17x96_1_0 : S96x17.Transposes [1, 0] S17x96
  transposes_S96x96_S96x96_1_0 : S96x96.Transposes [1, 0] S96x96
  shapeCasts_S96_S1x96 : S96.ShapeCasts S1x96
  inb_S5000x17_S5000x17_0_0 : ∀ a, (![0, 0] : Fin 2 → Nat) a + S5000x17.size a ≤ S5000x17.size a
  h_S5000x17 : 0 < S5000x17.numel
  bitsLt_bf16_f32 : FTy.bits .bf16 < FTy.bits .f32
  inb_S17x96_S17x96_0_0 : ∀ a, (![0, 0] : Fin 2 → Nat) a + S17x96.size a ≤ S17x96.size a
  h_S17x96 : 0 < S17x96.numel
  shapeCasts_S17x96_S17x96 : S17x96.ShapeCasts S17x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bcast_S_S50000x96 : S_.BroadcastsInDim S50000x96 (![] : Fin 0 → Fin S50000x96.rank)
  gather_S50000x96_S800000x1_S800000x96_1_0_n_n_0_1_196_wf : GatherDims.WF S50000x96 S800000x1 S800000x96 [1] [0] [] [0] [] 1 ![1, 96]
  dot_S5000x17_S17x96_S5000x96_1_0_0_1_n_n_wf : DotDims.WF S5000x17 S17x96 S5000x96 [1] [0] [0] [1] [] []
  dot_S5000x96_S96x96_S5000x96_1_0_0_1_n_n_wf : DotDims.WF S5000x96 S96x96 S5000x96 [1] [0] [0] [1] [] []
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x17.size a ≤ S800000x17.size a
  hwx0_0 : ∀ i : grid0.Coords, EltTy.bits .f32 = 32 ∨ (Rect.block (s := S800000x17) S5000x17.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S800000x96.size a
  hwx0_1 : ∀ i : grid0.Coords, EltTy.bits .f32 = 32 ∨ (Rect.block (s := S800000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S17x96.size a ≤ S17x96.size a
  hwx0_2 : ∀ i : grid0.Coords, EltTy.bits .f32 = 32 ∨ (Rect.block (s := S17x96) S17x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S800000x96.size a
  hwx0_6 : ∀ i : grid0.Coords, EltTy.bits .f32 = 32 ∨ (Rect.block (s := S800000x96) S5000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S50000x96.size a
  hwx1_6 : ∀ i : grid1.Coords, EltTy.bits .f32 = 32 ∨ (Rect.block (s := S50000x96) S5000x96.size (cc1_transform_6 i) (hinb1_6 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S5000x17_S17x96_S5000x96_1_0_0_1_n_n : DotDims S5000x17 S17x96 S5000x96 where
  lhsContracting := [1]
  rhsContracting := [0]
  lhsNonContracting := [0]
  rhsNonContracting := [1]
  lhsBatch := []
  rhsBatch := []
  wf := dot_S5000x17_S17x96_S5000x96_1_0_0_1_n_n_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg2) S5000x17.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S17x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S5000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000x17 : Shape := ⟨2, ![800000, 17]⟩
abbrev S96x17 : Shape := ⟨2, ![96, 17]⟩
abbrev S96 : Shape := ⟨1, ![96]⟩
abbrev S96x96 : Shape := ⟨2, ![96, 96]⟩
abbrev S1x800000 : Shape := ⟨2, ![1, 800000]⟩
abbrev S800000 : Shape := ⟨1, ![800000]⟩
abbrev S17x96 : Shape := ⟨2, ![17, 96]⟩
abbrev S800000x96 : Shape := ⟨2, ![800000, 96]⟩
abbrev S1x96 : Shape := ⟨2, ![1, 96]⟩
abbrev S_ : Shape := ⟨0, ![]⟩
abbrev S800000x1 : Shape := ⟨2, ![800000, 1]⟩

abbrev nBuf : Space → Nat
  | .hbm => 56
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x17, .f32⟩
  | .hbm, ⟨3, _⟩ => ⟨S96x17, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S96x96, .f32⟩
  | .hbm, ⟨10, _⟩ => ⟨S96, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S17x96, .f32⟩
  | .hbm, ⟨16, _⟩ => ⟨S800000x96, .f32⟩
  | .hbm, ⟨17, _⟩ => ⟨S1x96, .f32⟩
  | .hbm, ⟨18, _⟩ => ⟨S800000x96, .f32⟩
  | .hbm, ⟨19, _⟩ => ⟨S800000x96, .f32⟩
  | .hbm, ⟨20, _⟩ => ⟨S_, .f32⟩
  | .hbm, ⟨21, _⟩ => ⟨S800000x96, .f32⟩
  | .hbm, ⟨22, _⟩ => ⟨S800000x96, .f32⟩
  | .hbm, ⟨23, _⟩ => ⟨S96x96, .f32⟩
  | .hbm, ⟨24, _⟩ => ⟨S800000x96, .f32⟩
  | .hbm, ⟨25, _⟩ => ⟨S1x96, .f32⟩
  | .hbm, ⟨26, _⟩ => ⟨S800000x96, .f32⟩
  | .hbm, ⟨27, _⟩ => ⟨S800000x96, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x96, .f32⟩
  | .hbm, ⟨37, _⟩ => ⟨S800000x96, .f32⟩
  | .hbm, ⟨38, _⟩ => ⟨S_, .f32⟩
  | .hbm, ⟨39, _⟩ => ⟨S50000x96, .f32⟩
  | .hbm, ⟨40, _⟩ => ⟨S800000x1, .i32⟩
  | .hbm, ⟨41, _⟩ => ⟨S50000x96, .f32⟩
  | .hbm, ⟨42, _⟩ => ⟨S96x96, .f32⟩
  | .hbm, ⟨43, _⟩ => ⟨S50000x96, .f32⟩
  | .hbm, ⟨44, _⟩ => ⟨S1x96, .f32⟩
  | .hbm, ⟨45, _⟩ => ⟨S50000x96, .f32⟩
  | .hbm, ⟨46, _⟩ => ⟨S50000x96, .f32⟩
  | .hbm, ⟨47, _⟩ => ⟨S96x96, .f32⟩
  | .hbm, ⟨48, _⟩ => ⟨S50000x96, .f32⟩
  | .hbm, ⟨49, _⟩ => ⟨S50000x96, .f32⟩
  | .hbm, ⟨50, _⟩ => ⟨S1x96, .f32⟩
  | .hbm, ⟨51, _⟩ => ⟨S50000x96, .f32⟩
  | .hbm, ⟨52, _⟩ => ⟨S50000x96, .f32⟩
  | .hbm, ⟨53, _⟩ => ⟨S_, .f32⟩
  | .hbm, ⟨54, _⟩ => ⟨S50000x96, .f32⟩
  | .hbm, ⟨55, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S96x17_S17x96_1_0 : S96x17.Transposes [1, 0] S17x96
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  transposes_S96x96_S96x96_1_0 : S96x96.Transposes [1, 0] S96x96
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S1x96_S50000x96_0_1 : S1x96.BroadcastsInDim S50000x96 (![0, 1] : Fin 2 → Fin S50000x96.rank)
  dot_S800000x17_S17x96_S800000x96_1_0_0_1_n_n_wf : DotDims.WF S800000x17 S17x96 S800000x96 [1] [0] [0] [1] [] []
  dot_S800000x96_S96x96_S800000x96_1_0_0_1_n_n_wf : DotDims.WF S800000x96 S96x96 S800000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def dot_S800000x17_S17x96_S800000x96_1_0_0_1_n_n : DotDims S800000x17 S17x96 S800000x96 where
  lhsContracting := [1]
  rhsContracting := [0]
  lhsNonContracting := [0]
  rhsNonContracting := [1]
  lhsBatch := []
  rhsBatch := []
  wf := dot_S800000x17_S17x96_S800000x96_1_0_0_1_n_n_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.IndexWord.lean ====
/-
  One fact about 32-bit words, independent of the programs.

  Indexing a table of 50000 rows the way NumPy does, a signed index s with -50000 <= s < 50000 names row s when s >= 0
  and row s + 50000 when s < 0; either way the row number i lies in 0 <= i <= 49999.  In words: adding 50000 to a word
  whose signed value lies in [-50000, 0) does not wrap, so the signed value of the sum is the sum of the signed values.
-/
import Idealize.ShloMosaic.Lib.ValueIdx
import Idealize.ShloMosaic.Lib.StableHlo.Predicate
import Idealize.ShloMosaic.Lib.Affine

open Idealize.ShloMosaic

namespace Cert.IndexWord

theorem toInt_neg50000 : (4294917296#32 : BitVec 32).toInt = -50000 := by decide
theorem toInt_50000 : (50000#32 : BitVec 32).toInt = 50000 := by decide
theorem toInt_49999 : (49999#32 : BitVec 32).toInt = 49999 := by decide
theorem toInt_0 : (0#32 : BitVec 32).toInt = 0 := by decide

/-- The signed comparisons of two words, as comparisons of their signed values. -/
theorem cmpi_slt_iff (a b : BitVec 32) : IntOp.cmpi .slt a b = 1#1 ↔ a.toInt < b.toInt := by
  unfold IntOp.cmpi
  rw [StableHlo.Predicate.ofBool_eq_one_iff]
  simp only [BitVec.slt, decide_eq_true_eq]
theorem cmpi_sle_iff (a b : BitVec 32) : IntOp.cmpi .sle a b = 1#1 ↔ a.toInt ≤ b.toInt := by
  unfold IntOp.cmpi
  rw [StableHlo.Predicate.ofBool_eq_one_iff]
  simp only [BitVec.sle, decide_eq_true_eq]
theorem cmpi_sge_iff (a b : BitVec 32) : IntOp.cmpi .sge a b = 1#1 ↔ b.toInt ≤ a.toInt := by
  unfold IntOp.cmpi
  rw [StableHlo.Predicate.ofBool_eq_one_iff]
  simp only [BitVec.sle, decide_eq_true_eq]

/-- Adding 50000 to a word of signed value in [-50000, 0) does not wrap. -/
theorem toInt_add_50000 (s : BitVec 32) (h1 : -50000 ≤ s.toInt) (h2 : s.toInt < 0) :
    (IntOp.addi s 50000#32).toInt = s.toInt + 50000 := by
  unfold IntOp.addi
  rw [BitVec.toInt_add, toInt_50000]
  exact Int.bmod_eq_of_le (by omega) (by omega)

/-- A signed index in [-50000, 50000), wrapped as NumPy wraps a negative index, names a row in [0, 49999]. -/
theorem wrapped_in_range (s : BitVec 32) (h1 : IntOp.cmpi .sge s 4294917296#32 = 1#1) (h2 : IntOp.cmpi .slt s 50000#32 = 1#1) :
    IntOp.andi (IntOp.cmpi .sge (Scalar.select (IntOp.cmpi .slt s 0#32) (IntOp.addi s 50000#32) s) 0#32)
      (IntOp.cmpi .sle (Scalar.select (IntOp.cmpi .slt s 0#32) (IntOp.addi s 50000#32) s) 49999#32) = 1#1 := by
  rw [cmpi_sge_iff, toInt_neg50000] at h1
  rw [cmpi_slt_iff, toInt_50000] at h2
  rw [IntOp.andi_eq_one, cmpi_sge_iff, cmpi_sle_iff, toInt_0, toInt_49999]
  by_cases hneg : s.toInt < 0
  · have hc : IntOp.cmpi .slt s 0#32 = 1#1 := (cmpi_slt_iff _ _).2 (by rw [toInt_0]; exact hneg)
    rw [hc, ValueIdx.select_one, toInt_add_50000 s h1 hneg]
    omega
  · have hc : IntOp.cmpi .slt s 0#32 = 0#1 :=
      ValueIdx.eq_zero_of_ne_one fun h => hneg (by have := (cmpi_slt_iff _ _).1 h; rwa [toInt_0] at this)
    rw [hc, ValueIdx.select_zero]
    omega

end Cert.IndexWord
-- ==== Proof.TakeRows.lean ====
/-
  The row gather on the kernel's side, and why its fill never fires on an index in range.

  The kernel takes rows of x at the wrapped source indices and then overwrites with a fill value every row whose
  wrapped index is outside 0 .. 49999.  If every source index s satisfies -50000 <= s < 50000, every wrapped index is
  inside (the word fact of IndexWord), so the range test is 1 at every edge, the select keeps the gathered row
  everywhere, and the whole operation is the plain gather at the wrapped indices.
-/
import proofs.«412587_j39737037423416_1_alg».proof.Proof.Gen.KernelIdeal
import proofs.«412587_j39737037423416_1_alg».proof.Proof.IndexWord
import Idealize.ShloMosaic.Lib.ValueIdx
import Idealize.ShloMosaic.PureOps.Reduce

noncomputable section

open Idealize.ShloMosaic Idealize.ShloMosaic.ValueIdx

namespace Cert.KernelIdeal.Take
open Cert.KernelIdeal Cert.KernelIdeal.Gen

/-- The source and destination rows of the edge list. -/
def srcOf (e : IVec S2x800000 32) : IVec S800000 32 :=
  shapeCast S800000 (extractStridedSlice S1x800000 ![0, 0] e slices_S2x800000_S1x800000_0_0) shapeCasts_S1x800000_S800000
def dstOf (e : IVec S2x800000 32) : IVec S800000 32 :=
  shapeCast S800000 (extractStridedSlice S1x800000 ![1, 0] e slices_S2x800000_S1x800000_1_0) shapeCasts_S1x800000_S800000

/-- The indices wrapped as NumPy wraps a negative index, as a column of start indices. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The range test 0 <= i <= 49999 of each start index, reduced over the column's one entry. -/
def inRange (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The rows of `x` at the wrapped indices, a fill value where the range test fails. -/
def takeFill (x : FVec Ideal S50000x96 .f32) (src : IVec S800000 32) : FVec Ideal S800000x96 .f32 :=
  select (broadcastInDim S800000x96 ![0] bcast_S800000_S800000x96_0 (inRange (wrapIdx src)))
    (Host.gather gather_S50000x96_S800000x1_S800000x96_1_0_n_n_0_1_196 x (wrapIdx src))
    (broadcastInDim S800000x96 ![] bcast_S_S800000x96 (constant (F := Ideal) S_ .f32 0x7FC00000#32))

/-- A left fold of `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi (1#1 : BitVec 1) 1#1 = 1#1 from by decide]
    exact ih fun n hn => h n (List.mem_cons_of_mem _ hn)

/-- An and-reduce from 1 of an array that is 1 everywhere is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  exact foldl_andi_one x _ fun n _ => hx n

/-- With every source index in [-50000, 50000) the range test passes at every edge. -/
theorem inRange_all (src : IVec S800000 32)
    (h : ∀ e : S800000.Idx, IntOp.cmpi .sge (src e) 4294917296#32 = 1#1 ∧ IntOp.cmpi .slt (src e) 50000#32 = 1#1)
    (r : S800000.Idx) : inRange (wrapIdx src) r = 1#1 := by
  unfold inRange
  refine reduce_andi_of_all _ (constantI S_ 1 1#1) _ _ r rfl fun i => ?_
  exact Cert.IndexWord.wrapped_in_range _ (h _).1 (h _).2

/-- So the fill never fires: the operation is the gather at the wrapped indices. -/
theorem takeFill_eq_gather (x : FVec Ideal S50000x96 .f32) (src : IVec S800000 32)
    (h : ∀ e : S800000.Idx, IntOp.cmpi .sge (src e) 4294917296#32 = 1#1 ∧ IntOp.cmpi .slt (src e) 50000#32 = 1#1) :
    takeFill x src = Host.gather gather_S50000x96_S800000x1_S800000x96_1_0_n_n_0_1_196 x (wrapIdx src) := by
  funext i
  unfold takeFill
  rw [select_apply]
  have hm : broadcastInDim S800000x96 ![0] bcast_S800000_S800000x96_0 (inRange (wrapIdx src)) i = 1#1 := by
    unfold broadcastInDim
    exact inRange_all src h _
  rw [hm, select_one]

end Cert.KernelIdeal.Take
end
-- ==== Proof.HostWalk.lean ====
/-
  The kernel's program between its two regions: what each stretch of host operations leaves in the buffers the
  regions read, as functions of the launch memory.

  Before the edge region: the source and destination rows are the two rows of the edge list; the gathered source
  features are the rows of x at the wrapped source indices, with the fill where the range test fails; the weights are
  transposed and the biases reshaped to one row.  Between the regions: the messages are added into a zero array at the
  destination rows.  No stretch writes an argument, and no stretch writes a buffer an earlier one produced.
-/
import proofs.«412587_j39737037423416_1_alg».proof.Proof.Gen.KernelIdeal.Frame
import proofs.«412587_j39737037423416_1_alg».proof.Proof.TakeRows
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Walk
open Cert.KernelIdeal Cert.KernelIdeal.Gen Cert.KernelIdeal.Take

/-! ## Each stretch, from any contents `U` -/

section Stretches
variable (U : Valuation τ sig (Elt Ideal))

/-- Contents carried to a buffer's own type and back are the contents. -/
theorem ofBuf_toBuf {Val : EltTy → Type} {T : BufTy} (x : StableHlo.TRef sig T) (v : T.Contents Val) : x.ofBuf (x.toBuf v) = v := by
  unfold StableHlo.TRef.ofBuf StableHlo.TRef.toBuf
  rw [cast_cast]
  exact cast_eq _ _

abbrev tV4 : StableHlo.TRef sig ⟨S800000x96, .f32⟩ := .of main_v4
abbrev tA0 : StableHlo.TRef sig ⟨S50000x96, .f32⟩ := .of main_arg0
abbrev tV1 : StableHlo.TRef sig ⟨S800000, .i32⟩ := .of main_v1

/-- The first stretch splits the edge list into its two rows. -/
theorem ops0_v1 : StableHlo.after hostOps0 U (Proc.devRef .tc main_v1) = srcOf (U (Proc.devRef .tc main_arg1)) := by
  after_results
  rfl
theorem ops0_v3 : StableHlo.after hostOps0 U (Proc.devRef .tc main_v3) = dstOf (U (Proc.devRef .tc main_arg1)) := by
  after_results
  rfl

seal Host.reduce Host.gather in
set_option maxRecDepth 8192 in
set_option maxHeartbeats 2000000 in
/-- The second stretch takes the rows of x at the wrapped source indices, filling where the range test fails. -/
theorem ops01_v4 : tV4.ofBuf (Val := Elt Ideal) (StableHlo.after hostOps0_1 U (Proc.devRef .tc main_v4))
    = takeFill (tA0.ofBuf (Val := Elt Ideal) (U (Proc.devRef .tc main_arg0))) (tV1.ofBuf (Val := Elt Ideal) (U (Proc.devRef .tc main_v1))) := by
  after_results_simp
  simp only [ofBuf_toBuf]
  unfold takeFill wrapIdx inRange
  rfl

/-- The third stretch transposes the four weight matrices and reshapes the four biases to one row. -/
theorem ops02_v5 : StableHlo.after hostOps0_2 U (Proc.devRef .tc main_v5)
    = transpose S17x96 [1, 0] (U (Proc.devRef .tc main_arg3) : FVec Ideal S96x17 .f32) transposes_S96x17_S17x96_1_0 := by
  after_results
theorem ops02_v6 : StableHlo.after hostOps0_2 U (Proc.devRef .tc main_v6)
    = transpose S96x96 [1, 0] (U (Proc.devRef .tc main_arg5) : FVec Ideal S96x96 .f32) transposes_S96x96_S96x96_1_0 := by
  after_results
theorem ops02_v7 : StableHlo.after hostOps0_2 U (Proc.devRef .tc main_v7)
    = transpose S96x96 [1, 0] (U (Proc.devRef .tc main_arg7) : FVec Ideal S96x96 .f32) transposes_S96x96_S96x96_1_0 := by
  after_results
theorem ops02_v8 : StableHlo.after hostOps0_2 U (Proc.devRef .tc main_v8)
    = transpose S96x96 [1, 0] (U (Proc.devRef .tc main_arg9) : FVec Ideal S96x96 .f32) transposes_S96x96_S96x96_1_0 := by
  after_results
theorem ops02_v9 : StableHlo.after hostOps0_2 U (Proc.devRef .tc main_v9)
    = shapeCast S1x96 (U (Proc.devRef .tc main_arg4) : FVec Ideal S96 .f32) shapeCasts_S96_S1x96 := by
  after_results
  rfl
theorem ops02_v10 : StableHlo.after hostOps0_2 U (Proc.devRef .tc main_v10)
    = shapeCast S1x96 (U (Proc.devRef .tc main_arg6) : FVec Ideal S96 .f32) shapeCasts_S96_S1x96 := by
  after_results
  rfl
theorem ops02_v11 : StableHlo.after hostOps0_2 U (Proc.devRef .tc main_v11)
    = shapeCast S1x96 (U (Proc.devRef .tc main_arg8) : FVec Ideal S96 .f32) shapeCasts_S96_S1x96 := by
  after_results
  rfl
theorem ops02_v12 : StableHlo.after hostOps0_2 U (Proc.devRef .tc main_v12)
    = shapeCast S1x96 (U (Proc.devRef .tc main_arg10) : FVec Ideal S96 .f32) shapeCasts_S96_S1x96 := by
  after_results
  rfl

/-- The stretch between the regions adds the messages into a zero array at the destination rows. -/
theorem ops1_v16 : StableHlo.after hostOps1 U (Proc.devRef .tc main_v16)
    = Host.scatterAdd (F := Ideal) scatter_S50000x96_S800000x1_S800000x96_1_0_0_1
        (broadcastInDim S50000x96 ![] bcast_S_S50000x96 (constant (F := Ideal) S_ .f32 0x00000000#32))
        (broadcastInDim S800000x1 ![0] bcast_S800000_S800000x1_0 (U (Proc.devRef .tc main_v3) : IVec S800000 32))
        (U (Proc.devRef .tc main_v13) : FVec Ideal S800000x96 .f32) := by
  after_results

/-! ### What each stretch writes, and that it keeps every other buffer -/

abbrev L0 : List (Ref sig .tc) := [main_v0, main_v1, main_v2, main_v3]
abbrev L01 : List (Ref sig .tc) := [main_call0_c, main_call0_v0, main_call0_v1, main_call0_c_0, main_call0_v2, main_call0_v3, main_call0_v4,
  main_call0_v5, main_call0_c_1, main_call0_c_2, main_call0_v6, main_call0_v7, main_call0_v8, main_call0_v9, main_call0_v10, main_call0_v11,
  main_call0_c_3, main_call0_v12, main_call0_v13, main_call0_v14, main_call0_cst, main_call0_v15, main_v4]
abbrev L02 : List (Ref sig .tc) := [main_v5, main_v6, main_v7, main_v8, main_v9, main_v10, main_v11, main_v12]
abbrev L1 : List (Ref sig .tc) := [main_cst, main_v14, main_v15, main_v16]

theorem writes0 : (hostOps0 : List (HloOp τ sig (Elt Ideal))).Forall fun op => op.writes ⊆ (L0.map (Proc.devRef (τ := τ) .tc)).toFinset := by
  simp only [hostOps0, List.Forall, StableHlo.nullary_writes, StableHlo.unary_writes, StableHlo.binary_writes, StableHlo.ternary_writes, StableHlo.reshape_writes]
  refine ⟨?_, ?_, ?_, ?_⟩ <;> simp
theorem writes01 : (hostOps0_1 : List (HloOp τ sig (Elt Ideal))).Forall fun op => op.writes ⊆ (L01.map (Proc.devRef (τ := τ) .tc)).toFinset := by
  simp only [hostOps0_1, List.Forall, StableHlo.nullary_writes, StableHlo.unary_writes, StableHlo.binary_writes, StableHlo.ternary_writes, StableHlo.reshape_writes]
  repeat' apply And.intro
  all_goals exact Finset.singleton_subset_iff.2 (List.mem_toFinset.2 (List.mem_map.2 ⟨_, by decide, rfl⟩))
theorem writes02 : (hostOps0_2 : List (HloOp τ sig (Elt Ideal))).Forall fun op => op.writes ⊆ (L02.map (Proc.devRef (τ := τ) .tc)).toFinset := by
  simp only [hostOps0_2, List.Forall, StableHlo.nullary_writes, StableHlo.unary_writes, StableHlo.binary_writes, StableHlo.ternary_writes, StableHlo.reshape_writes]
  repeat' apply And.intro
  all_goals exact Finset.singleton_subset_iff.2 (List.mem_toFinset.2 (List.mem_map.2 ⟨_, by decide, rfl⟩))
theorem writes1 : (hostOps1 : List (HloOp τ sig (Elt Ideal))).Forall fun op => op.writes ⊆ (L1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact Finset.singleton_subset_iff.2 (List.mem_toFinset.2 (List.mem_map.2 ⟨_, by decide, rfl⟩))

theorem keep0 (b : Ref sig .tc) (hb : b ∉ L0) : StableHlo.after hostOps0 U (Proc.devRef .tc b) = U (Proc.devRef .tc b) :=
  StableHlo.after_of_writes_sub _ _ writes0 hb
theorem keep01 (b : Ref sig .tc) (hb : b ∉ L01) : StableHlo.after hostOps0_1 U (Proc.devRef .tc b) = U (Proc.devRef .tc b) :=
  StableHlo.after_of_writes_sub _ _ writes01 hb
theorem keep02 (b : Ref sig .tc) (hb : b ∉ L02) : StableHlo.after hostOps0_2 U (Proc.devRef .tc b) = U (Proc.devRef .tc b) :=
  StableHlo.after_of_writes_sub _ _ writes02 hb
theorem keep1 (b : Ref sig .tc) (hb : b ∉ L1) : StableHlo.after hostOps1 U (Proc.devRef .tc b) = U (Proc.devRef .tc b) :=
  StableHlo.after_of_writes_sub _ _ writes1 hb

end Stretches

end Cert.KernelIdeal.Walk
end
-- ==== Proof.Spec.lean ====
/-
  The layer as mathematics, over the raw arguments.

  For an edge e with attributes ea(e, .) and gathered source row xs(e, .):
      msg(e, q) = ( sum_k relu( sum_l ea(e,l) W1(k,l) + b1(k) ) W2(q,k) + b2(q) ) * xs(e,q),
  a two-layer perceptron of the attributes giving one weight per feature, times the source feature.
  For a node n with features x(n, .) and aggregated messages agg(n, .):
      out(n, q) = relu( ( sum_k x(n,k) Ws(q,k) + bs(q) ) + ( sum_k agg(n,k) Wn(q,k) + bn(q) ) ).
  Both programs compute these; they differ in where the weights are transposed, in the shape the biases travel in,
  and in how the last four terms are bracketed.
-/
import Idealize.ShloMosaic.Lib.ValueIdx
import Idealize.ShloMosaic.PureOps.Ideal

noncomputable section

open Idealize.ShloMosaic Idealize.ShloMosaic.ValueIdx

namespace Cert.Spec

/-- The per-edge message at edge `r` and feature `q`. -/
def msgAt (ea : (⟨2, ![800000, 17]⟩ : Shape).Idx → EReal) (W1 : (⟨2, ![96, 17]⟩ : Shape).Idx → EReal) (b1 : (⟨1, ![96]⟩ : Shape).Idx → EReal)
    (W2 : (⟨2, ![96, 96]⟩ : Shape).Idx → EReal) (b2 : (⟨1, ![96]⟩ : Shape).Idx → EReal) (xs : (⟨2, ![800000, 96]⟩ : Shape).Idx → EReal)
    (r : Fin 800000) (q : Fin 96) : EReal :=
  ((∑ k : Fin 96, max ((∑ l : Fin 17, ea (ix2 r l) * W1 (ix2 k l)) + b1 (ix1 k)) 0 * W2 (ix2 q k)) + b2 (ix1 q)) * xs (ix2 r q)

/-- The per-edge message. -/
def msg (ea : (⟨2, ![800000, 17]⟩ : Shape).Idx → EReal) (W1 : (⟨2, ![96, 17]⟩ : Shape).Idx → EReal) (b1 : (⟨1, ![96]⟩ : Shape).Idx → EReal)
    (W2 : (⟨2, ![96, 96]⟩ : Shape).Idx → EReal) (b2 : (⟨1, ![96]⟩ : Shape).Idx → EReal) (xs : (⟨2, ![800000, 96]⟩ : Shape).Idx → EReal) :
    (⟨2, ![800000, 96]⟩ : Shape).Idx → EReal := fun i => msgAt ea W1 b1 W2 b2 xs (i 0) (i 1)

/-- The per-node output at node `r` and feature `q`. -/
def outAt (x agg : (⟨2, ![50000, 96]⟩ : Shape).Idx → EReal) (Ws : (⟨2, ![96, 96]⟩ : Shape).Idx → EReal) (bs : (⟨1, ![96]⟩ : Shape).Idx → EReal)
    (Wn : (⟨2, ![96, 96]⟩ : Shape).Idx → EReal) (bn : (⟨1, ![96]⟩ : Shape).Idx → EReal) (r : Fin 50000) (q : Fin 96) : EReal :=
  max (((∑ k : Fin 96, x (ix2 r k) * Ws (ix2 q k)) + bs (ix1 q))
      + ((∑ k : Fin 96, agg (ix2 r k) * Wn (ix2 q k)) + bn (ix1 q))) 0

/-- The per-node output. -/
def out (x agg : (⟨2, ![50000, 96]⟩ : Shape).Idx → EReal) (Ws : (⟨2, ![96, 96]⟩ : Shape).Idx → EReal) (bs : (⟨1, ![96]⟩ : Shape).Idx → EReal)
    (Wn : (⟨2, ![96, 96]⟩ : Shape).Idx → EReal) (bn : (⟨1, ![96]⟩ : Shape).Idx → EReal) :
    (⟨2, ![50000, 96]⟩ : Shape).Idx → EReal := fun i => outAt x agg Ws bs Wn bn (i 0) (i 1)

end Cert.Spec
end
-- ==== Proof.BlockSums.lean ====
/-
  The two matrix products of the kernels' bodies, read at an entry.  Each body multiplies a block of 5000 rows by a
  small matrix (17 x 96 for the first edge layer, 96 x 96 for the others) into a zero accumulator; over the extended
  reals entry (p, q) of such a product is the plain sum, over the contracted position k, of l(p, k) * r(k, q).
-/
import proofs.«412587_j39737037423416_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Sums
open Cert.KernelIdeal

/-! ### The record `dot_S5000x17_S17x96_S5000x96_1_0_0_1_n_n`: its operand indices, axis by axis -/

theorem lhsA_0 (i : S5000x96.Idx) (q : dot_S5000x17_S17x96_S5000x96_1_0_0_1_n_n.contr.Idx) :
    (dot_S5000x17_S17x96_S5000x96_1_0_0_1_n_n.lhsIdx i q 0).val = (i 0).val := by
  unfold DotDims.lhsIdx
  rw [dif_neg (show ¬(0 : Fin S5000x17.rank) ∈ dot_S5000x17_S17x96_S5000x96_1_0_0_1_n_n.lhsBatch by decide), dif_pos (show (0 : Fin S5000x17.rank) ∈ dot_S5000x17_S17x96_S5000x96_1_0_0_1_n_n.lhsNonContracting by decide)]
  rfl
theorem lhsA_1 (i : S5000x96.Idx) (q : dot_S5000x17_S17x96_S5000x96_1_0_0_1_n_n.contr.Idx) :
    (dot_S5000x17_S17x96_S5000x96_1_0_0_1_n_n.lhsIdx i q 1).val = (q ⟨0, by decide⟩).val :=
  dot_S5000x17_S17x96_S5000x96_1_0_0_1_n_n.lhsIdx_val_of_single rfl i q
theorem rhsA_0 (i : S5000x96.Idx) (q : dot_S5000x17_S17x96_S5000x96_1_0_0_1_n_n.contr.Idx) :
    (dot_S5000x17_S17x96_S5000x96_1_0_0_1_n_n.rhsIdx i q 0).val = (q ⟨0, by decide⟩).val :=
  dot_S5000x17_S17x96_S5000x96_1_0_0_1_n_n.rhsIdx_val_of_single rfl i q
theorem rhsA_1 (i : S5000x96.Idx) (q : dot_S5000x17_S17x96_S5000x96_1_0_0_1_n_n.contr.Idx) :
    (dot_S5000x17_S17x96_S5000x96_1_0_0_1_n_n.rhsIdx i q 1).val = (i 1).val := by
  unfold DotDims.rhsIdx
  rw [dif_neg (show ¬(1 : Fin S17x96.rank) ∈ dot_S5000x17_S17x96_S5000x96_1_0_0_1_n_n.rhsBatch by decide), dif_pos (show (1 : Fin S17x96.rank) ∈ dot_S5000x17_S17x96_S5000x96_1_0_0_1_n_n.rhsNonContracting by decide)]
  rfl

/-- A product of a block of rows with a 17-row matrix, accumulated from zero, read at row `p` and column `q`:
    the sum over the 17 contracted positions of the row's entry times the column's. -/
theorem matmulA_apply {φ₁ φ₂ : FTy} (l : FVec Ideal S5000x17 φ₁) (r : FVec Ideal S17x96 φ₂) (p : Fin 5000) (q : Fin 96) :
    matmul dot_S5000x17_S17x96_S5000x96_1_0_0_1_n_n none l r (constant S5000x96 .f32 0x00000000#32) (ix2 p q)
      = ∑ k : Fin 17, l (ix2 p k) * r (ix2 k q) := by
  refine (Ideal.matmul_constant_zero_apply dot_S5000x17_S17x96_S5000x96_1_0_0_1_n_n none l r (ix2 p q)).trans ?_
  rw [← Equiv.sum_comp (contrEquiv1 dot_S5000x17_S17x96_S5000x96_1_0_0_1_n_n 17 rfl rfl).symm]
  refine Finset.sum_congr rfl fun k _ => ?_
  have hk := contrEquiv1_symm_val dot_S5000x17_S17x96_S5000x96_1_0_0_1_n_n 17 rfl rfl k
  have el : dot_S5000x17_S17x96_S5000x96_1_0_0_1_n_n.lhsIdx (ix2 p q) ((contrEquiv1 dot_S5000x17_S17x96_S5000x96_1_0_0_1_n_n 17 rfl rfl).symm k) = ix2 p k := funext fun a => Fin.ext (by
    match a with
    | ⟨0, _⟩ => exact lhsA_0 _ _
    | ⟨1, _⟩ => exact (lhsA_1 _ _).trans hk)
  have er : dot_S5000x17_S17x96_S5000x96_1_0_0_1_n_n.rhsIdx (ix2 p q) ((contrEquiv1 dot_S5000x17_S17x96_S5000x96_1_0_0_1_n_n 17 rfl rfl).symm k) = ix2 k q := funext fun a => Fin.ext (by
    match a with
    | ⟨0, _⟩ => exact (rhsA_0 _ _).trans hk
    | ⟨1, _⟩ => exact rhsA_1 _ _)
  rw [el, er]

/-! ### The record `dot_S5000x96_S96x96_S5000x96_1_0_0_1_n_n`: its operand indices, axis by axis -/

theorem lhsB_0 (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem lhsB_1 (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
theorem rhsB_0 (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
theorem rhsB_1 (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- A product of a block of rows with a 96-row matrix, accumulated from zero, read at row `p` and column `q`:
    the sum over the 96 contracted positions of the row's entry times the column's. -/
theorem matmulB_apply {φ₁ φ₂ : FTy} (l : FVec Ideal S5000x96 φ₁) (r : FVec Ideal S96x96 φ₂) (p : Fin 5000) (q : Fin 96) :
    matmul dot_S5000x96_S96x96_S5000x96_1_0_0_1_n_n none l r (constant S5000x96 .f32 0x00000000#32) (ix2 p q)
      = ∑ k : Fin 96, l (ix2 p k) * r (ix2 k q) := by
  refine (Ideal.matmul_constant_zero_apply dot_S5000x96_S96x96_S5000x96_1_0_0_1_n_n none l r (ix2 p q)).trans ?_
  rw [← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q) ((contrEquiv1 dot_S5000x96_S96x96_S5000x96_1_0_0_1_n_n 96 rfl rfl).symm k) = ix2 p k := funext fun a => Fin.ext (by
    match a with
    | ⟨0, _⟩ => exact lhsB_0 _ _
    | ⟨1, _⟩ => exact (lhsB_1 _ _).trans hk)
  have er : dot_S5000x96_S96x96_S5000x96_1_0_0_1_n_n.rhsIdx (ix2 p q) ((contrEquiv1 dot_S5000x96_S96x96_S5000x96_1_0_0_1_n_n 96 rfl rfl).symm k) = ix2 k q := funext fun a => Fin.ext (by
    match a with
    | ⟨0, _⟩ => exact (rhsB_0 _ _).trans hk
    | ⟨1, _⟩ => exact rhsB_1 _ _)
  rw [el, er]

end Cert.KernelIdeal.Sums
end
-- ==== Proof.Payloads.lean ====
/-
  What each kernel body stores, read at one entry of the block.

  The edge kernel stores, at row p (an edge of the block) and column q,
      ( sum_k  max( sum_l ea(p,l) * W1t(l,k) + b1(0,k), 0 ) * W2t(k,q)  +  b2(0,q) )  *  xs(p,q):
  the two-layer perceptron of the edge's attributes, times the gathered source row.
  The node kernel stores
      max( ( sum_k x(p,k) * Wst(k,q) + bs(0,q) ) + ( sum_k agg(p,k) * Wnt(k,q) + bn(0,q) ), 0 ).
  Roundings to the narrow format are the identity on the extended reals, and a product accumulated from zero is
  the plain sum.
-/
import proofs.«412587_j39737037423416_1_alg».proof.Proof.BlockSums
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Sums
open Cert.KernelIdeal Cert.KernelIdeal.Gen

/-- The edge perceptron times the source row, at one entry. -/
def edgeAt (ea : Vec Ideal S5000x17 .f32) (w1 : Vec Ideal S17x96 .f32) (b1 : Vec Ideal S1x96 .f32)
    (w2 : Vec Ideal S96x96 .f32) (b2 : Vec Ideal S1x96 .f32) (xs : Vec Ideal S5000x96 .f32) (p : Fin 5000) (q : Fin 96) : EReal :=
  ((∑ k : Fin 96, max ((∑ l : Fin 17, ea (ix2 p l) * w1 (ix2 l k)) + b1 (ix2 (0 : Fin 1) k)) 0 * w2 (ix2 k q))
      + b2 (ix2 (0 : Fin 1) q)) * xs (ix2 p q)

/-- The two linear maps added and clipped at zero, at one entry. -/
def nodeAt (x agg : Vec Ideal S5000x96 .f32) (ws : Vec Ideal S96x96 .f32) (bs : Vec Ideal S1x96 .f32)
    (wn : Vec Ideal S96x96 .f32) (bn : Vec Ideal S1x96 .f32) (p : Fin 5000) (q : Fin 96) : EReal :=
  max (((∑ k : Fin 96, x (ix2 p k) * ws (ix2 k q)) + bs (ix2 (0 : Fin 1) q))
      + ((∑ k : Fin 96, agg (ix2 p k) * wn (ix2 k q)) + bn (ix2 (0 : Fin 1) q))) 0

theorem edge_pay_apply (v0 : Vec Ideal S5000x17 .f32) (v2 : Vec Ideal S17x96 .f32) (v6 : Vec Ideal S1x96 .f32)
    (v13 : Vec Ideal S96x96 .f32) (v17 : Vec Ideal S1x96 .f32) (v21 : Vec Ideal S5000x96 .f32) (p : Fin 5000) (q : Fin 96) :
    k0_pay1 (F := Ideal) v0 v2 v6 v13 v17 v21 (ix2 p q) = edgeAt v0 v2 v6 v13 v17 v21 p q := by
  unfold k0_pay1 edgeAt
  simp only [mulf_apply, addf_apply, shapeCast_self]
  rw [matmulB_apply, broadcastTo_1b_ab_apply]
  simp only [truncf_apply, maximumf_apply, addf_apply, broadcast_apply, matmulA_apply, broadcastTo_1b_ab_apply]
  simp only [Ideal.ofBits_def, Ideal.ofBits_zero_f32]

theorem node_pay_apply (v0 v10 : Vec Ideal S5000x96 .f32) (v2 v13 : Vec Ideal S96x96 .f32) (v6 v17 : Vec Ideal S1x96 .f32)
    (p : Fin 5000) (q : Fin 96) :
    k1_pay1 (F := Ideal) v0 v2 v6 v10 v13 v17 (ix2 p q) = nodeAt v0 v10 v2 v6 v13 v17 p q := by
  unfold k1_pay1 nodeAt
  simp only [maximumf_apply, addf_apply, broadcast_apply, shapeCast_self]
  rw [matmulB_apply, matmulB_apply, broadcastTo_1b_ab_apply, broadcastTo_1b_ab_apply]
  simp only [truncf_apply]
  simp only [Ideal.ofBits_def, Ideal.ofBits_zero_f32]

end Cert.KernelIdeal.Sums
end
-- ==== Proof.EdgeValue.lean ====
/-
  The edge kernel's region, read as one whole-array function.

  The region walks the 800000 edges in 160 blocks of 5000.  At block t it stages rows 5000 t .. 5000 t + 4999 of the
  edge attributes (17 columns) and of the gathered source features (96 columns), and the four small operands whole
  (the transposed 17 x 96 and 96 x 96 weight matrices and the two 1 x 96 biases, read at block (0, 0) by every point),
  and writes back the same rows of the message array.  So row e of the messages depends on row e of the attributes
  and of the source features only:
      msg(e, q) = ( sum_k max( sum_l ea(e,l) W1t(l,k) + b1(0,k), 0 ) W2t(k,q) + b2(0,q) ) * xs(e,q),
  and the 160 blocks cover every row (row e lies in block e / 5000).  Everything is stated at the contents V the
  region finds in its arrays when it is entered, whatever they are.
-/
import proofs.«412587_j39737037423416_1_alg».proof.Proof.Payloads
import proofs.«412587_j39737037423416_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.EdgeValue
open Cert.KernelIdeal Cert.KernelIdeal.Gen Cert.KernelIdeal.Sums

variable (V : (c : Dev nD) → (b : Ref sig .tc) → Buf (Elt Ideal) ((c : Thread nD τ).loc b))

theorem hz : (![0, 0] : Fin 2 → Nat) = fun _ => 0 := funext fun a => by fin_cases a <;> rfl

/-! ## The region's six input arrays as it finds them, each at its literal type -/

abbrev eaArr (c : Dev nD) : Vec Ideal S800000x17 .f32 := V c main_arg2
abbrev xsArr (c : Dev nD) : Vec Ideal S800000x96 .f32 := V c main_v4
abbrev w1Arr (c : Dev nD) : Vec Ideal S17x96 .f32 := V c main_v5
abbrev b1Arr (c : Dev nD) : Vec Ideal S1x96 .f32 := V c main_v9
abbrev w2Arr (c : Dev nD) : Vec Ideal S96x96 .f32 := V c main_v6
abbrev b2Arr (c : Dev nD) : Vec Ideal S1x96 .f32 := V c main_v10

/-- Entry (r, q) of the message array, from row r of `ea` and of `xs`. -/
def edgeRowAt (ea : Vec Ideal S800000x17 .f32) (xs : Vec Ideal S800000x96 .f32) (w1 : Vec Ideal S17x96 .f32)
    (b1 : Vec Ideal S1x96 .f32) (w2 : Vec Ideal S96x96 .f32) (b2 : Vec Ideal S1x96 .f32) (r : Fin 800000) (q : Fin 96) : EReal :=
  ((∑ k : Fin 96, max ((∑ l : Fin 17, ea (ix2 r l) * w1 (ix2 l k)) + b1 (ix2 (0 : Fin 1) k)) 0 * w2 (ix2 k q))
      + b2 (ix2 (0 : Fin 1) q)) * xs (ix2 r q)

/-- The message array as one function of the six arrays. -/
def edgeArr (ea : Vec Ideal S800000x17 .f32) (xs : Vec Ideal S800000x96 .f32) (w1 : Vec Ideal S17x96 .f32)
    (b1 : Vec Ideal S1x96 .f32) (w2 : Vec Ideal S96x96 .f32) (b2 : Vec Ideal S1x96 .f32) : Vec Ideal S800000x96 .f32 := fun i =>
  edgeRowAt ea xs w1 b1 w2 b2 (i 0) (i 1)

/-- The block indices, decided over the 160 grid points: the two row-blocked inputs and the output sit at row block t,
    the four small operands at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each staged block, read where it lies in its array -/

/-- Row p of block t of the attributes is row 5000 t + p of the attributes. -/
theorem eablk_apply (c : Dev nD) (t : Fin cfg0.N) (p : Fin 5000) (l : Fin 17) (r : Fin 800000) (hr : r.val = t.val * 5000 + p.val) :
    (iblk0 V c 0 t : Vec Ideal S5000x17 .f32) (ix2 p l) = eaArr V c (ix2 r l) := by
  obtain ⟨e0, e1, -⟩ := idx_facts t
  unfold iblk0
  rw [View.read_apply]
  show V c main_arg2 _ = V c main_arg2 _
  congr 1
  funext a
  apply Fin.ext
  match a with
  | ⟨0, _⟩ => show win0_0.index t 0 * 5000 + 1 * p.val = r.val; rw [e0, hr]; omega
  | ⟨1, _⟩ => show win0_0.index t 1 * 17 + 1 * l.val = l.val; rw [e1]; omega

/-- Row p of block t of the source features is row 5000 t + p of the source features. -/
theorem xsblk_apply (c : Dev nD) (t : Fin cfg0.N) (p : Fin 5000) (q : Fin 96) (r : Fin 800000) (hr : r.val = t.val * 5000 + p.val) :
    (iblk0 V c 1 t : Vec Ideal S5000x96 .f32) (ix2 p q) = xsArr V c (ix2 r q) := by
  obtain ⟨-, -, e0, e1, -⟩ := idx_facts t
  unfold iblk0
  rw [View.read_apply]
  show V c main_v4 _ = V c main_v4 _
  congr 1
  funext a
  apply Fin.ext
  match a with
  | ⟨0, _⟩ => show win0_1.index t 0 * 5000 + 1 * p.val = r.val; rw [e0, hr]; omega
  | ⟨1, _⟩ => show win0_1.index t 1 * 96 + 1 * q.val = q.val; rw [e1]; omega

/-- Each small operand's block is the operand. -/
theorem w1blk_eq (c : Dev nD) (t : Fin cfg0.N) : (iblk0 V c 2 t : Vec Ideal S17x96 .f32) = w1Arr V c := by
  obtain ⟨-, -, -, -, e0, e1, -⟩ := idx_facts t
  funext j
  unfold iblk0
  rw [View.read_apply]
  show V c main_v5 _ = V c main_v5 j
  congr 1
  funext a
  apply Fin.ext
  match a with
  | ⟨0, _⟩ => show win0_2.index t 0 * 17 + 1 * (j 0).val = (j 0).val; rw [e0]; omega
  | ⟨1, _⟩ => show win0_2.index t 1 * 96 + 1 * (j 1).val = (j 1).val; rw [e1]; omega
theorem b1blk_eq (c : Dev nD) (t : Fin cfg0.N) : (iblk0 V c 3 t : Vec Ideal S1x96 .f32) = b1Arr V c := by
  obtain ⟨-, -, -, -, -, -, e0, e1, -⟩ := idx_facts t
  funext j
  unfold iblk0
  rw [View.read_apply]
  show V c main_v9 _ = V c main_v9 j
  congr 1
  funext a
  apply Fin.ext
  match a with
  | ⟨0, _⟩ => show win0_3.index t 0 * 1 + 1 * (j 0).val = (j 0).val; rw [e0]; omega
  | ⟨1, _⟩ => show win0_3.index t 1 * 96 + 1 * (j 1).val = (j 1).val; rw [e1]; omega
theorem w2blk_eq (c : Dev nD) (t : Fin cfg0.N) : (iblk0 V c 4 t : Vec Ideal S96x96 .f32) = w2Arr V c := by
  obtain ⟨-, -, -, -, -, -, -, -, e0, e1, -⟩ := idx_facts t
  funext j
  unfold iblk0
  rw [View.read_apply]
  show V c main_v6 _ = V c main_v6 j
  congr 1
  funext a
  apply Fin.ext
  match a with
  | ⟨0, _⟩ => show win0_4.index t 0 * 96 + 1 * (j 0).val = (j 0).val; rw [e0]; omega
  | ⟨1, _⟩ => show win0_4.index t 1 * 96 + 1 * (j 1).val = (j 1).val; rw [e1]; omega
theorem b2blk_eq (c : Dev nD) (t : Fin cfg0.N) : (iblk0 V c 5 t : Vec Ideal S1x96 .f32) = b2Arr V c := by
  obtain ⟨-, -, -, -, -, -, -, -, -, -, e0, e1, -⟩ := idx_facts t
  funext j
  unfold iblk0
  rw [View.read_apply]
  show V c main_v10 _ = V c main_v10 j
  congr 1
  funext a
  apply Fin.ext
  match a with
  | ⟨0, _⟩ => show win0_5.index t 0 * 1 + 1 * (j 0).val = (j 0).val; rw [e0]; omega
  | ⟨1, _⟩ => show win0_5.index t 1 * 96 + 1 * (j 1).val = (j 1).val; rw [e1]; omega

/-! ## What a point writes back, and the array after the last point -/

/-- Point t writes back block t of `edgeArr` of the arrays as the region finds them. -/
theorem flushed_eq (c : Dev nD) (t : Fin cfg0.N) :
    (dat0 V c).flushed 6 t = ((cfg0.win 6).blk t).view.read (Elt Ideal)
      (edgeArr (eaArr V c) (xsArr V c) (w1Arr V c) (b1Arr V c) (w2Arr V c) (b2Arr V c)) := by
  show (cfg0.win 6).cut (grid0.coords t) ((dat0 V c).after 6 t) = _
  rw [after0_6]
  unfold out0_6
  rw [View.canon_unit_zero hz]
  simp only [View.ld_unit_zero (S := S5000x17) hz, View.ld_unit_zero (S := S5000x96) hz, View.ld_unit_zero (S := S17x96) hz,
    View.ld_unit_zero (S := S96x96) hz, View.ld_unit_zero (S := S1x96) hz]
  obtain ⟨-, -, -, -, -, -, -, -, -, -, -, -, e0, e1⟩ := idx_facts t
  funext j
  show k0_pay1 (F := Ideal) (iblk0 V c 0 t) (iblk0 V c 2 t) (iblk0 V c 3 t) (iblk0 V c 4 t) (iblk0 V c 5 t) (iblk0 V c 1 t) (j : S5000x96.Idx)
    = edgeArr (eaArr V c) (xsArr V c) (w1Arr V c) (b1Arr V c) (w2Arr V c) (b2Arr V c) (((cfg0.win 6).blk t).view.emb j)
  obtain ⟨p, q, rfl⟩ : ∃ (p : Fin 5000) (q : Fin 96), (j : S5000x96.Idx) = ix2 p q := ⟨j 0, j 1, eq_ix2 j⟩
  refine (edge_pay_apply (iblk0 V c 0 t) (iblk0 V c 2 t) (iblk0 V c 3 t) (iblk0 V c 4 t) (iblk0 V c 5 t) (iblk0 V c 1 t) p q).trans ?_
  have hr : ((((cfg0.win 6).blk t).view.emb (ix2 p q) : S800000x96.Idx) 0).val = t.val * 5000 + p.val := by
    show win0_6.index t 0 * 5000 + 1 * p.val = _; rw [e0]; omega
  have hq : (((cfg0.win 6).blk t).view.emb (ix2 p q) : S800000x96.Idx) 1 = q :=
    Fin.ext (by show win0_6.index t 1 * 96 + 1 * q.val = q.val; rw [e1]; omega)
  generalize (((cfg0.win 6).blk t).view.emb (ix2 p q) : S800000x96.Idx) = i at hr hq
  show edgeAt _ _ _ _ _ _ p q = edgeRowAt _ _ _ _ _ _ (i 0) (i 1)
  rw [hq]
  unfold edgeAt edgeRowAt
  rw [w1blk_eq, b1blk_eq, w2blk_eq, b2blk_eq, xsblk_apply V c t p q (i 0) hr]
  refine congrArg₂ (· * ·) (congrArg₂ (· + ·) (Finset.sum_congr rfl fun k _ => congrArg₂ (· * ·)
    (congrArg₂ max (congrArg₂ (· + ·) (Finset.sum_congr rfl fun l _ => ?_) rfl) rfl) rfl) rfl) rfl
  rw [eablk_apply V c t p l (i 0) hr]

/-- An index lies in point t's block iff each coordinate lies in the block's range on its axis. -/
theorem mem_blk (t : Fin cfg0.N) (i : S800000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v13).slice (win0_6.rect t)).set ↔ _
  rw [View.set_slice_whole, Rect.mem_set_unit]
  exact Iff.rfl

/-- Every row is in some point's block: row e in block e / 5000. -/
theorem cover (i : S800000x96.Idx) : ∃ t : Fin cfg0.N, (cfg0.win 6).flush t = true ∧ i ∈ ((cfg0.win 6).blk t).view.set := by
  have hN : cfg0.N = 160 := N_0
  have hi0 : (i 0).val < 800000 := (i 0).isLt
  have hi1 : (i 1).val < 96 := (i 1).isLt
  refine ⟨⟨(i 0).val / 5000, by omega⟩, flush0_6 _, ?_⟩
  rw [mem_blk]
  obtain ⟨-, -, -, -, -, -, -, -, -, -, -, -, e0, e1⟩ := idx_facts ⟨(i 0).val / 5000, by omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 96 ≤ (i 1).val ∧ (i 1).val < win0_6.index _ (1 : Fin 2) * 96 + 96
    rw [e1]; omega

/-- THE MESSAGE ARRAY after the region's last point. -/
theorem final (c : Dev nD) :
    (dat0 V c).arrAt 6 cfg0.N = edgeArr (eaArr V c) (xsArr V c) (w1Arr V c) (b1Arr V c) (w2Arr V c) (b2Arr V c) :=
  (dat0 V c).arrAt_eq_of_cover 6 _ (fun t _ => flushed_eq V c t) cover

end Cert.KernelIdeal.EdgeValue
end
-- ==== Proof.NodeValue.lean ====
/-
  The node kernel's region, read as one whole-array function.

  The region walks the 50000 node rows in ten blocks of 5000.  At block t it stages rows 5000 t .. 5000 t + 4999 of
  the node features x and of the aggregated messages agg, and the four small operands whole (the two transposed
  96 x 96 weight matrices and the two 1 x 96 biases, which every block reads at block index (0, 0)), and writes back
  rows 5000 t .. 5000 t + 4999 of the result.  So row r of the result depends on row r of x and of agg only:
      out(r, q) = max( (sum_k x(r,k) Wst(k,q) + bs(0,q)) + (sum_k agg(r,k) Wnt(k,q) + bn(0,q)), 0 ),
  and the ten blocks cover every row (row r lies in block r / 5000).  Everything is stated at the contents V the
  region finds in its arrays when it is entered, whatever they are.
-/
import proofs.«412587_j39737037423416_1_alg».proof.Proof.Payloads
import proofs.«412587_j39737037423416_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.NodeValue
open Cert.KernelIdeal Cert.KernelIdeal.Gen Cert.KernelIdeal.Sums

variable (V : (c : Dev nD) → (b : Ref sig .tc) → Buf (Elt Ideal) ((c : Thread nD τ).loc b))

theorem hz : (![0, 0] : Fin 2 → Nat) = fun _ => 0 := funext fun a => by fin_cases a <;> rfl

/-! ## The region's six input arrays as it finds them, each at its literal type -/

abbrev xArr (c : Dev nD) : Vec Ideal S50000x96 .f32 := V c main_arg0
abbrev aggArr (c : Dev nD) : Vec Ideal S50000x96 .f32 := V c main_v16
abbrev wsArr (c : Dev nD) : Vec Ideal S96x96 .f32 := V c main_v7
abbrev bsArr (c : Dev nD) : Vec Ideal S1x96 .f32 := V c main_v11
abbrev wnArr (c : Dev nD) : Vec Ideal S96x96 .f32 := V c main_v8
abbrev bnArr (c : Dev nD) : Vec Ideal S1x96 .f32 := V c main_v12

/-- Entry (r, q) of the result array, from row r of `x` and `agg`. -/
def nodeRowAt (x agg : Vec Ideal S50000x96 .f32) (ws : Vec Ideal S96x96 .f32) (bs : Vec Ideal S1x96 .f32)
    (wn : Vec Ideal S96x96 .f32) (bn : Vec Ideal S1x96 .f32) (r : Fin 50000) (q : Fin 96) : EReal :=
  max (((∑ k : Fin 96, x (ix2 r k) * ws (ix2 k q)) + bs (ix2 (0 : Fin 1) q))
      + ((∑ k : Fin 96, agg (ix2 r k) * wn (ix2 k q)) + bn (ix2 (0 : Fin 1) q))) 0

/-- The result array as one function of the six arrays. -/
def nodeArr (x agg : Vec Ideal S50000x96 .f32) (ws : Vec Ideal S96x96 .f32) (bs : Vec Ideal S1x96 .f32)
    (wn : Vec Ideal S96x96 .f32) (bn : Vec Ideal S1x96 .f32) : Vec Ideal S50000x96 .f32 := fun i =>
  nodeRowAt x agg ws bs wn bn (i 0) (i 1)

/-- The block indices, decided over the ten grid points: the two row-blocked inputs and the output sit at row block t,
    the four small operands at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each staged block, read where it lies in its array -/

/-- Row p of block t of `x` is row 5000 t + p of `x`. -/
theorem xblk_apply (c : Dev nD) (t : Fin cfg1.N) (p : Fin 5000) (k : Fin 96) (r : Fin 50000) (hr : r.val = t.val * 5000 + p.val) :
    (iblk1 V c 0 t : Vec Ideal S5000x96 .f32) (ix2 p k) = xArr V c (ix2 r k) := by
  obtain ⟨e0, e1, -⟩ := idx_facts t
  unfold iblk1
  rw [View.read_apply]
  show V c main_arg0 _ = V c main_arg0 _
  congr 1
  funext a
  apply Fin.ext
  match a with
  | ⟨0, _⟩ => show win1_0.index t 0 * 5000 + 1 * p.val = r.val; rw [e0, hr]; omega
  | ⟨1, _⟩ => show win1_0.index t 1 * 96 + 1 * k.val = k.val; rw [e1]; omega

/-- Row p of block t of `agg` is row 5000 t + p of `agg`. -/
theorem aggblk_apply (c : Dev nD) (t : Fin cfg1.N) (p : Fin 5000) (k : Fin 96) (r : Fin 50000) (hr : r.val = t.val * 5000 + p.val) :
    (iblk1 V c 1 t : Vec Ideal S5000x96 .f32) (ix2 p k) = aggArr V c (ix2 r k) := by
  obtain ⟨-, -, e0, e1, -⟩ := idx_facts t
  unfold iblk1
  rw [View.read_apply]
  show V c main_v16 _ = V c main_v16 _
  congr 1
  funext a
  apply Fin.ext
  match a with
  | ⟨0, _⟩ => show win1_1.index t 0 * 5000 + 1 * p.val = r.val; rw [e0, hr]; omega
  | ⟨1, _⟩ => show win1_1.index t 1 * 96 + 1 * k.val = k.val; rw [e1]; omega

/-- Each small operand's block is the operand. -/
theorem wsblk_eq (c : Dev nD) (t : Fin cfg1.N) : (iblk1 V c 2 t : Vec Ideal S96x96 .f32) = wsArr V c := by
  obtain ⟨-, -, -, -, e0, e1, -⟩ := idx_facts t
  funext j
  unfold iblk1
  rw [View.read_apply]
  show V c main_v7 _ = V c main_v7 j
  congr 1
  funext a
  apply Fin.ext
  match a with
  | ⟨0, _⟩ => show win1_2.index t 0 * 96 + 1 * (j 0).val = (j 0).val; rw [e0]; omega
  | ⟨1, _⟩ => show win1_2.index t 1 * 96 + 1 * (j 1).val = (j 1).val; rw [e1]; omega
theorem bsblk_eq (c : Dev nD) (t : Fin cfg1.N) : (iblk1 V c 3 t : Vec Ideal S1x96 .f32) = bsArr V c := by
  obtain ⟨-, -, -, -, -, -, e0, e1, -⟩ := idx_facts t
  funext j
  unfold iblk1
  rw [View.read_apply]
  show V c main_v11 _ = V c main_v11 j
  congr 1
  funext a
  apply Fin.ext
  match a with
  | ⟨0, _⟩ => show win1_3.index t 0 * 1 + 1 * (j 0).val = (j 0).val; rw [e0]; omega
  | ⟨1, _⟩ => show win1_3.index t 1 * 96 + 1 * (j 1).val = (j 1).val; rw [e1]; omega
theorem wnblk_eq (c : Dev nD) (t : Fin cfg1.N) : (iblk1 V c 4 t : Vec Ideal S96x96 .f32) = wnArr V c := by
  obtain ⟨-, -, -, -, -, -, -, -, e0, e1, -⟩ := idx_facts t
  funext j
  unfold iblk1
  rw [View.read_apply]
  show V c main_v8 _ = V c main_v8 j
  congr 1
  funext a
  apply Fin.ext
  match a with
  | ⟨0, _⟩ => show win1_4.index t 0 * 96 + 1 * (j 0).val = (j 0).val; rw [e0]; omega
  | ⟨1, _⟩ => show win1_4.index t 1 * 96 + 1 * (j 1).val = (j 1).val; rw [e1]; omega
theorem bnblk_eq (c : Dev nD) (t : Fin cfg1.N) : (iblk1 V c 5 t : Vec Ideal S1x96 .f32) = bnArr V c := by
  obtain ⟨-, -, -, -, -, -, -, -, -, -, e0, e1, -⟩ := idx_facts t
  funext j
  unfold iblk1
  rw [View.read_apply]
  show V c main_v12 _ = V c main_v12 j
  congr 1
  funext a
  apply Fin.ext
  match a with
  | ⟨0, _⟩ => show win1_5.index t 0 * 1 + 1 * (j 0).val = (j 0).val; rw [e0]; omega
  | ⟨1, _⟩ => show win1_5.index t 1 * 96 + 1 * (j 1).val = (j 1).val; rw [e1]; omega

/-! ## What a point writes back, and the array after the last point -/

/-- Point t writes back block t of `nodeArr` of the arrays as the region finds them. -/
theorem flushed_eq (c : Dev nD) (t : Fin cfg1.N) :
    (dat1 V c).flushed 6 t = ((cfg1.win 6).blk t).view.read (Elt Ideal)
      (nodeArr (xArr V c) (aggArr V c) (wsArr V c) (bsArr V c) (wnArr V c) (bnArr V c)) := by
  show (cfg1.win 6).cut (grid1.coords t) ((dat1 V c).after 6 t) = _
  rw [after1_6]
  unfold out1_6
  rw [View.canon_unit_zero hz]
  simp only [View.ld_unit_zero (S := S5000x96) hz, View.ld_unit_zero (S := S96x96) hz, View.ld_unit_zero (S := S1x96) hz]
  obtain ⟨-, -, -, -, -, -, -, -, -, -, -, -, e0, e1⟩ := idx_facts t
  funext j
  show k1_pay1 (F := Ideal) (iblk1 V c 0 t) (iblk1 V c 2 t) (iblk1 V c 3 t) (iblk1 V c 1 t) (iblk1 V c 4 t) (iblk1 V c 5 t) (j : S5000x96.Idx)
    = nodeArr (xArr V c) (aggArr V c) (wsArr V c) (bsArr V c) (wnArr V c) (bnArr V c) (((cfg1.win 6).blk t).view.emb j)
  obtain ⟨p, q, rfl⟩ : ∃ (p : Fin 5000) (q : Fin 96), (j : S5000x96.Idx) = ix2 p q := ⟨j 0, j 1, eq_ix2 j⟩
  refine (node_pay_apply (iblk1 V c 0 t) (iblk1 V c 1 t) (iblk1 V c 2 t) (iblk1 V c 4 t) (iblk1 V c 3 t) (iblk1 V c 5 t) p q).trans ?_
  have hr : ((((cfg1.win 6).blk t).view.emb (ix2 p q) : S50000x96.Idx) 0).val = t.val * 5000 + p.val := by
    show win1_6.index t 0 * 5000 + 1 * p.val = _; rw [e0]; omega
  have hq : (((cfg1.win 6).blk t).view.emb (ix2 p q) : S50000x96.Idx) 1 = q :=
    Fin.ext (by show win1_6.index t 1 * 96 + 1 * q.val = q.val; rw [e1]; omega)
  generalize (((cfg1.win 6).blk t).view.emb (ix2 p q) : S50000x96.Idx) = i at hr hq
  show nodeAt _ _ _ _ _ _ p q = nodeRowAt _ _ _ _ _ _ (i 0) (i 1)
  rw [hq]
  unfold nodeAt nodeRowAt
  rw [wsblk_eq, bsblk_eq, wnblk_eq, bnblk_eq]
  refine congrArg₂ max (congrArg₂ (· + ·) (congrArg₂ (· + ·) (Finset.sum_congr rfl fun k _ => ?_) rfl)
    (congrArg₂ (· + ·) (Finset.sum_congr rfl fun k _ => ?_) rfl)) rfl
  · rw [xblk_apply V c t p k (i 0) hr]
  · rw [aggblk_apply V c t p k (i 0) hr]

/-- An index lies in point t's block iff each coordinate lies in the block's range on its axis. -/
theorem mem_blk (t : Fin cfg1.N) (i : S50000x96.Idx) :
    i ∈ ((cfg1.win 6).blk t).view.set ↔ ∀ a : Fin 2, win1_6.index t a * S5000x96.size a ≤ (i a).val ∧ (i a).val < win1_6.index t a * S5000x96.size a + S5000x96.size a := by
  show i ∈ ((View.whole main_v17).slice (win1_6.rect t)).set ↔ _
  rw [View.set_slice_whole, Rect.mem_set_unit]
  exact Iff.rfl

/-- Every row is in some point's block: row r in block r / 5000. -/
theorem cover (i : S50000x96.Idx) : ∃ t : Fin cfg1.N, (cfg1.win 6).flush t = true ∧ i ∈ ((cfg1.win 6).blk t).view.set := by
  have hN : cfg1.N = 10 := N_1
  have hi0 : (i 0).val < 50000 := (i 0).isLt
  have hi1 : (i 1).val < 96 := (i 1).isLt
  refine ⟨⟨(i 0).val / 5000, by omega⟩, flush1_6 _, ?_⟩
  rw [mem_blk]
  obtain ⟨-, -, -, -, -, -, -, -, -, -, -, -, e0, e1⟩ := idx_facts ⟨(i 0).val / 5000, by omega⟩
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 96 ≤ (i 1).val ∧ (i 1).val < win1_6.index _ (1 : Fin 2) * 96 + 96
    rw [e1]; omega

/-- THE RESULT ARRAY after the region's last point. -/
theorem final (c : Dev nD) :
    (dat1 V c).arrAt 6 cfg1.N = nodeArr (xArr V c) (aggArr V c) (wsArr V c) (bsArr V c) (wnArr V c) (bnArr V c) :=
  (dat1 V c).arrAt_eq_of_cover 6 _ (fun t _ => flushed_eq V c t) cover

end Cert.KernelIdeal.NodeValue
end
-- ==== Proof.KernelSpec.lean ====
/-
  The kernels' whole-array functions are the layer's mathematics: a transposed weight read at (k, q) is the weight at
  (q, k), and a bias reshaped to one row read at (0, q) is the bias at q.
-/
import proofs.«412587_j39737037423416_1_alg».proof.Proof.Spec
import proofs.«412587_j39737037423416_1_alg».proof.Proof.EdgeValue
import proofs.«412587_j39737037423416_1_alg».proof.Proof.NodeValue
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.ToSpec
open Cert.KernelIdeal Cert.KernelIdeal.Gen

/-- A transposed weight matrix read at (k, q) is the matrix at (q, k). -/
theorem transpose_w1 {α : Type} (W1 : S96x17.Idx → α) (l : Fin 17) (k : Fin 96) :
    transpose S17x96 [1, 0] W1 transposes_S96x17_S17x96_1_0 (ix2 l k) = W1 (ix2 k l) :=
  transpose_ix2_apply W1 transposes_S96x17_S17x96_1_0 l k
theorem transpose_w {α : Type} (W : S96x96.Idx → α) (k q : Fin 96) :
    transpose S96x96 [1, 0] W transposes_S96x96_S96x96_1_0 (ix2 k q) = W (ix2 q k) :=
  transpose_ix2_apply W transposes_S96x96_S96x96_1_0 k q

theorem edgeRowAt_eq (ea : Vec Ideal S800000x17 .f32) (xs : Vec Ideal S800000x96 .f32) (W1 : FVec Ideal S96x17 .f32)
    (b1 : FVec Ideal S96 .f32) (W2 : FVec Ideal S96x96 .f32) (b2 : FVec Ideal S96 .f32) (r : Fin 800000) (q : Fin 96) :
    EdgeValue.edgeRowAt ea xs (transpose S17x96 [1, 0] W1 transposes_S96x17_S17x96_1_0) (shapeCast S1x96 b1 shapeCasts_S96_S1x96)
      (transpose S96x96 [1, 0] W2 transposes_S96x96_S96x96_1_0) (shapeCast S1x96 b2 shapeCasts_S96_S1x96) r q
      = Cert.Spec.msgAt ea W1 b1 W2 b2 xs r q := by
  unfold EdgeValue.edgeRowAt Cert.Spec.msgAt
  have h1 : ∀ (l : Fin 17) (k : Fin 96), transpose S17x96 [1, 0] W1 transposes_S96x17_S17x96_1_0 (ix2 l k) = W1 (ix2 k l) :=
    fun l k => transpose_w1 W1 l k
  have h2 : ∀ (k q : Fin 96), transpose S96x96 [1, 0] W2 transposes_S96x96_S96x96_1_0 (ix2 k q) = W2 (ix2 q k) :=
    fun k q => transpose_w W2 k q
  simp only [h1, h2, shapeCast_a_1a_apply]

theorem edgeArr_eq (ea : Vec Ideal S800000x17 .f32) (xs : Vec Ideal S800000x96 .f32) (W1 : FVec Ideal S96x17 .f32)
    (b1 : FVec Ideal S96 .f32) (W2 : FVec Ideal S96x96 .f32) (b2 : FVec Ideal S96 .f32) :
    EdgeValue.edgeArr ea xs (transpose S17x96 [1, 0] W1 transposes_S96x17_S17x96_1_0) (shapeCast S1x96 b1 shapeCasts_S96_S1x96)
      (transpose S96x96 [1, 0] W2 transposes_S96x96_S96x96_1_0) (shapeCast S1x96 b2 shapeCasts_S96_S1x96)
      = Cert.Spec.msg ea W1 b1 W2 b2 xs := by
  funext i
  exact edgeRowAt_eq ea xs W1 b1 W2 b2 (i 0) (i 1)

theorem nodeRowAt_eq (x agg : Vec Ideal S50000x96 .f32) (Ws : FVec Ideal S96x96 .f32) (bs : FVec Ideal S96 .f32)
    (Wn : FVec Ideal S96x96 .f32) (bn : FVec Ideal S96 .f32) (r : Fin 50000) (q : Fin 96) :
    NodeValue.nodeRowAt x agg (transpose S96x96 [1, 0] Ws transposes_S96x96_S96x96_1_0) (shapeCast S1x96 bs shapeCasts_S96_S1x96)
      (transpose S96x96 [1, 0] Wn transposes_S96x96_S96x96_1_0) (shapeCast S1x96 bn shapeCasts_S96_S1x96) r q
      = Cert.Spec.outAt x agg Ws bs Wn bn r q := by
  unfold NodeValue.nodeRowAt Cert.Spec.outAt
  have h1 : ∀ (k q : Fin 96), transpose S96x96 [1, 0] Ws transposes_S96x96_S96x96_1_0 (ix2 k q) = Ws (ix2 q k) :=
    fun k q => transpose_w Ws k q
  have h2 : ∀ (k q : Fin 96), transpose S96x96 [1, 0] Wn transposes_S96x96_S96x96_1_0 (ix2 k q) = Wn (ix2 q k) :=
    fun k q => transpose_w Wn k q
  simp only [h1, h2, shapeCast_a_1a_apply]

theorem nodeArr_eq (x agg : Vec Ideal S50000x96 .f32) (Ws : FVec Ideal S96x96 .f32) (bs : FVec Ideal S96 .f32)
    (Wn : FVec Ideal S96x96 .f32) (bn : FVec Ideal S96 .f32) :
    NodeValue.nodeArr x agg (transpose S96x96 [1, 0] Ws transposes_S96x96_S96x96_1_0) (shapeCast S1x96 bs shapeCasts_S96_S1x96)
      (transpose S96x96 [1, 0] Wn transposes_S96x96_S96x96_1_0) (shapeCast S1x96 bn shapeCasts_S96_S1x96)
      = Cert.Spec.out x agg Ws bs Wn bn := by
  funext i
  exact nodeRowAt_eq x agg Ws bs Wn bn (i 0) (i 1)

end Cert.KernelIdeal.ToSpec
end
-- ==== Proof.KernelResult.lean ====
/-
  The kernel program's result as one function of its arguments.

  Walking the program's boundaries back from the return: the result buffer holds what the node region leaves, the
  node kernel's function of the region's six input arrays; of those, x and the four small operands come from the
  arguments (transposed or reshaped on the way), and the aggregate is the scatter-add, at the destination rows, of
  what the edge region leaves; that in turn is the edge kernel's function of the attributes, the gathered source
  features and its four small operands.  With the kernels' functions read as the layer's mathematics:
      result = out( x, scatterAdd(0, dst, msg(ea, W1, b1, W2, b2, take(x, src))), Ws, bs, Wn, bn ).
-/
import proofs.«412587_j39737037423416_1_alg».proof.Proof.HostWalk
import proofs.«412587_j39737037423416_1_alg».proof.Proof.KernelSpec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Result
open Cert.KernelIdeal Cert.KernelIdeal.Gen Cert.KernelIdeal.Take Cert.KernelIdeal.Walk

/-! ## Casts at a buffer's own type are the identity -/

theorem ofBuf_v4 (v : tV4.ref.ty.Contents (Elt Ideal)) :
    (tV4.ofBuf v : BufTy.Contents (Elt Ideal) ⟨S800000x96, .f32⟩) = (v : BufTy.Contents (Elt Ideal) ⟨S800000x96, .f32⟩) := rfl
theorem ofBuf_a0 (v : tA0.ref.ty.Contents (Elt Ideal)) :
    (tA0.ofBuf v : BufTy.Contents (Elt Ideal) ⟨S50000x96, .f32⟩) = (v : BufTy.Contents (Elt Ideal) ⟨S50000x96, .f32⟩) := rfl
theorem ofBuf_v1 (v : tV1.ref.ty.Contents (Elt Ideal)) :
    (tV1.ofBuf v : BufTy.Contents (Elt Ideal) ⟨S800000, .i32⟩) = (v : BufTy.Contents (Elt Ideal) ⟨S800000, .i32⟩) := rfl

/-- The gather stretch without the casts. -/
theorem ops01_take (U : Valuation τ sig (Elt Ideal)) :
    StableHlo.after hostOps0_1 U (Proc.devRef .tc main_v4) = takeFill (U (Proc.devRef .tc main_arg0)) (U (Proc.devRef .tc main_v1)) := by
  have h := ops01_v4 U
  rw [ofBuf_v4, ofBuf_a0, ofBuf_v1] at h
  exact h

variable (m : (ℓ : Loc nD τ sig) → Buf (Elt Ideal) ℓ) (ρ : Dev nD → PrngReg)

/-! ## A buffer no stretch so far has written holds its launch contents -/

theorem W1_of (c : Dev nD) (b : Ref sig .tc) (h0 : b ∉ L0) : W1 m ρ c (Proc.devRef .tc b) = W0 m ρ c (Proc.devRef .tc b) :=
  keep0 (W0 m ρ c) b h0
theorem W2_of (c : Dev nD) (b : Ref sig .tc) (h0 : b ∉ L0) (h1 : b ∉ L01) : W2 m ρ c (Proc.devRef .tc b) = W0 m ρ c (Proc.devRef .tc b) :=
  (keep01 (W1 m ρ c) b h1).trans (W1_of m ρ c b h0)
theorem W3_of (c : Dev nD) (b : Ref sig .tc) (h0 : b ∉ L0) (h1 : b ∉ L01) (h2 : b ∉ L02) :
    W3 m ρ c (Proc.devRef .tc b) = W0 m ρ c (Proc.devRef .tc b) :=
  (keep02 (W2 m ρ c) b h2).trans (W2_of m ρ c b h0 h1)

/-! ## The edge region's input arrays, from the launch memory -/

theorem V3_arg2 (c : Dev nD) : V3 m ρ c main_arg2 = m ((c : Thread nD τ).loc main_arg2) :=
  (W3_of m ρ c main_arg2 (by decide) (by decide) (by decide)).trans rfl

/-- The source and destination rows after the first stretch. -/
theorem W1_v1 (c : Dev nD) : W1 m ρ c (Proc.devRef .tc main_v1) = srcOf (m ((c : Thread nD τ).loc main_arg1)) :=
  (ops0_v1 (W0 m ρ c)).trans rfl
theorem W1_v3 (c : Dev nD) : W1 m ρ c (Proc.devRef .tc main_v3) = dstOf (m ((c : Thread nD τ).loc main_arg1)) :=
  (ops0_v3 (W0 m ρ c)).trans rfl

theorem V3_v4 (c : Dev nD) : V3 m ρ c main_v4
    = takeFill (m ((c : Thread nD τ).loc main_arg0)) (srcOf (m ((c : Thread nD τ).loc main_arg1))) := by
  refine (keep02 (W2 m ρ c) main_v4 (by decide)).trans ?_
  refine (ops01_take (W1 m ρ c)).trans ?_
  rw [W1_of m ρ c main_arg0 (by decide), W1_v1 m ρ c]

theorem V3_v5 (c : Dev nD) : V3 m ρ c main_v5
    = transpose S17x96 [1, 0] (m ((c : Thread nD τ).loc main_arg3) : FVec Ideal S96x17 .f32) transposes_S96x17_S17x96_1_0 := by
  refine (ops02_v5 (W2 m ρ c)).trans ?_
  rw [W2_of m ρ c main_arg3 (by decide) (by decide)]
theorem V3_v9 (c : Dev nD) : V3 m ρ c main_v9
    = shapeCast S1x96 (m ((c : Thread nD τ).loc main_arg4) : FVec Ideal S96 .f32) shapeCasts_S96_S1x96 := by
  refine (ops02_v9 (W2 m ρ c)).trans ?_
  rw [W2_of m ρ c main_arg4 (by decide) (by decide)]
theorem V3_v6 (c : Dev nD) : V3 m ρ c main_v6
    = transpose S96x96 [1, 0] (m ((c : Thread nD τ).loc main_arg5) : FVec Ideal S96x96 .f32) transposes_S96x96_S96x96_1_0 := by
  refine (ops02_v6 (W2 m ρ c)).trans ?_
  rw [W2_of m ρ c main_arg5 (by decide) (by decide)]
theorem V3_v10 (c : Dev nD) : V3 m ρ c main_v10
    = shapeCast S1x96 (m ((c : Thread nD τ).loc main_arg6) : FVec Ideal S96 .f32) shapeCasts_S96_S1x96 := by
  refine (ops02_v10 (W2 m ρ c)).trans ?_
  rw [W2_of m ρ c main_arg6 (by decide) (by decide)]

/-- The gathered source features the edge region multiplies by. -/
abbrev taken (c : Dev nD) : FVec Ideal S800000x96 .f32 :=
  takeFill (m ((c : Thread nD τ).loc main_arg0)) (srcOf (m ((c : Thread nD τ).loc main_arg1)))

/-- What the edge region leaves in the message array. -/
theorem W4_msg (c : Dev nD) : W4 m ρ c (Proc.devRef .tc main_v13)
    = Cert.Spec.msg (m ((c : Thread nD τ).loc main_arg2)) (m ((c : Thread nD τ).loc main_arg3)) (m ((c : Thread nD τ).loc main_arg4))
        (m ((c : Thread nD τ).loc main_arg5)) (m ((c : Thread nD τ).loc main_arg6)) (taken m c) := by
  refine (W4_arr m ρ c 6).trans ?_
  refine (EdgeValue.final (V3 m ρ) c).trans ?_
  show EdgeValue.edgeArr (V3 m ρ c main_arg2) (V3 m ρ c main_v4) (V3 m ρ c main_v5) (V3 m ρ c main_v9) (V3 m ρ c main_v6) (V3 m ρ c main_v10) = _
  rw [V3_arg2, V3_v4, V3_v5, V3_v9, V3_v6, V3_v10]
  exact ToSpec.edgeArr_eq _ _ _ _ _ _

/-! ## The node region's input arrays, from the launch memory -/

theorem W5_of (c : Dev nD) (b : Ref sig .tc) (h0 : b ∉ L0) (h1 : b ∉ L01) (h2 : b ∉ L02) (h4 : ∀ w, Pipeline.arrRef spec0 w ≠ b)
    (h5 : b ∉ L1) : W5 m ρ c (Proc.devRef .tc b) = W0 m ρ c (Proc.devRef .tc b) :=
  (keep1 (W4 m ρ c) b h5).trans ((W4_of_ne m ρ c b h4).trans (W3_of m ρ c b h0 h1 h2))

theorem V5_arg0 (c : Dev nD) : V5 m ρ c main_arg0 = m ((c : Thread nD τ).loc main_arg0) :=
  (W5_of m ρ c main_arg0 (by decide) (by decide) (by decide) (by decide) (by decide)).trans rfl

theorem V5_v7 (c : Dev nD) : V5 m ρ c main_v7
    = transpose S96x96 [1, 0] (m ((c : Thread nD τ).loc main_arg7) : FVec Ideal S96x96 .f32) transposes_S96x96_S96x96_1_0 := by
  refine (keep1 (W4 m ρ c) main_v7 (by decide)).trans ?_
  refine (W4_of_ne m ρ c main_v7 (by decide)).trans ?_
  refine (ops02_v7 (W2 m ρ c)).trans ?_
  rw [W2_of m ρ c main_arg7 (by decide) (by decide)]
theorem V5_v11 (c : Dev nD) : V5 m ρ c main_v11
    = shapeCast S1x96 (m ((c : Thread nD τ).loc main_arg8) : FVec Ideal S96 .f32) shapeCasts_S96_S1x96 := by
  refine (keep1 (W4 m ρ c) main_v11 (by decide)).trans ?_
  refine (W4_of_ne m ρ c main_v11 (by decide)).trans ?_
  refine (ops02_v11 (W2 m ρ c)).trans ?_
  rw [W2_of m ρ c main_arg8 (by decide) (by decide)]
theorem V5_v8 (c : Dev nD) : V5 m ρ c main_v8
    = transpose S96x96 [1, 0] (m ((c : Thread nD τ).loc main_arg9) : FVec Ideal S96x96 .f32) transposes_S96x96_S96x96_1_0 := by
  refine (keep1 (W4 m ρ c) main_v8 (by decide)).trans ?_
  refine (W4_of_ne m ρ c main_v8 (by decide)).trans ?_
  refine (ops02_v8 (W2 m ρ c)).trans ?_
  rw [W2_of m ρ c main_arg9 (by decide) (by decide)]
theorem V5_v12 (c : Dev nD) : V5 m ρ c main_v12
    = shapeCast S1x96 (m ((c : Thread nD τ).loc main_arg10) : FVec Ideal S96 .f32) shapeCasts_S96_S1x96 := by
  refine (keep1 (W4 m ρ c) main_v12 (by decide)).trans ?_
  refine (W4_of_ne m ρ c main_v12 (by decide)).trans ?_
  refine (ops02_v12 (W2 m ρ c)).trans ?_
  rw [W2_of m ρ c main_arg10 (by decide) (by decide)]

/-- The destination rows at the second host stretch. -/
theorem W4_v3 (c : Dev nD) : W4 m ρ c (Proc.devRef .tc main_v3) = dstOf (m ((c : Thread nD τ).loc main_arg1)) :=
  (W4_of_ne m ρ c main_v3 (by decide)).trans ((keep02 (W2 m ρ c) main_v3 (by decide)).trans
    ((keep01 (W1 m ρ c) main_v3 (by decide)).trans (W1_v3 m ρ c)))

/-- The messages added up at their destination rows. -/
abbrev aggregated (c : Dev nD) : FVec Ideal S50000x96 .f32 :=
  Host.scatterAdd (F := Ideal) scatter_S50000x96_S800000x1_S800000x96_1_0_0_1
    (broadcastInDim S50000x96 ![] bcast_S_S50000x96 (constant (F := Ideal) S_ .f32 0x00000000#32))
    (broadcastInDim S800000x1 ![0] bcast_S800000_S800000x1_0 (dstOf (m ((c : Thread nD τ).loc main_arg1))))
    (Cert.Spec.msg (m ((c : Thread nD τ).loc main_arg2)) (m ((c : Thread nD τ).loc main_arg3)) (m ((c : Thread nD τ).loc main_arg4))
      (m ((c : Thread nD τ).loc main_arg5)) (m ((c : Thread nD τ).loc main_arg6)) (taken m c))

theorem V5_v16 (c : Dev nD) : V5 m ρ c main_v16 = aggregated m c := by
  refine (ops1_v16 (W4 m ρ c)).trans ?_
  rw [W4_v3 m ρ c, W4_msg m ρ c]

/-! ## The result -/

/-- THE RESULT BUFFER at the return, as one function of the arguments. -/
theorem result (c : Dev nD) : W6 m ρ c (Proc.devRef .tc main_v17)
    = Cert.Spec.out (m ((c : Thread nD τ).loc main_arg0)) (aggregated m c) (m ((c : Thread nD τ).loc main_arg7))
        (m ((c : Thread nD τ).loc main_arg8)) (m ((c : Thread nD τ).loc main_arg9)) (m ((c : Thread nD τ).loc main_arg10)) := by
  refine (W6_arr m ρ c 6).trans ?_
  refine (NodeValue.final (V5 m ρ) c).trans ?_
  show NodeValue.nodeArr (V5 m ρ c main_arg0) (V5 m ρ c main_v16) (V5 m ρ c main_v7) (V5 m ρ c main_v11) (V5 m ρ c main_v8) (V5 m ρ c main_v12) = _
  rw [V5_arg0, V5_v16, V5_v7, V5_v11, V5_v8, V5_v12]
  exact ToSpec.nodeArr_eq _ _ _ _ _ _

end Cert.KernelIdeal.Result
end
-- ==== Proof.RefSpec.lean ====
/-
  The reference's stages are the layer's mathematics.

  Read at edge r and feature q, the reference's message stage is the two-layer perceptron of the edge's attributes times
  the gathered source feature, with the weights read transposed where the program transposes them and the biases read
  through the two broadcasts that carry them; read at node r and feature q its last stage is the clipped sum of the two
  linear maps, bracketed ((A + bs) + B) + bn where the kernel brackets (A + bs) + (B + bn): addition of extended reals
  is associative, so the two agree with no finiteness assumption.
-/
import proofs.«412587_j39737037423416_1_alg».proof.Proof.Spec
import proofs.«412587_j39737037423416_1_alg».proof.Proof.Gen.ReferenceIdeal.Read
import Idealize.ShloMosaic.Lib.ValueIdx
import Idealize.ShloMosaic.PureOps.Ideal.Laws

noncomputable section

open Idealize.ShloMosaic Idealize.ShloMosaic.ValueIdx

namespace Cert.RefBridge
open Cert.ReferenceIdeal Cert.ReferenceIdeal.Read

/-! ## The composed index functions at explicit coordinates -/

theorem e_l11 (r : Fin 800000) (q k : Fin 96) : lidx_main_v11 (ix2 r q) k = ix2 r k :=
  funext fun a => Fin.ext (by match a with | ⟨0, _⟩ => rfl | ⟨1, _⟩ => rfl)
theorem e_r11 (r : Fin 800000) (q k : Fin 96) : ridx_main_v11 (ix2 r q) k = ix2 k q :=
  funext fun a => Fin.ext (by match a with | ⟨0, _⟩ => rfl | ⟨1, _⟩ => rfl)
theorem e_10 (k q : Fin 96) : idx_main_v10 (ix2 k q) = ix2 q k :=
  funext fun a => Fin.ext (by match a with | ⟨0, _⟩ => rfl | ⟨1, _⟩ => rfl)
theorem e_l5 (r : Fin 800000) (k : Fin 96) (l : Fin 17) : lidx_main_v5 (ix2 r k) l = ix2 r l :=
  funext fun a => Fin.ext (by match a with | ⟨0, _⟩ => rfl | ⟨1, _⟩ => rfl)
theorem e_r5 (r : Fin 800000) (k : Fin 96) (l : Fin 17) : ridx_main_v5 (ix2 r k) l = ix2 l k :=
  funext fun a => Fin.ext (by match a with | ⟨0, _⟩ => rfl | ⟨1, _⟩ => rfl)
theorem e_4 (l : Fin 17) (k : Fin 96) : idx_main_v4 (ix2 l k) = ix2 k l :=
  funext fun a => Fin.ext (by match a with | ⟨0, _⟩ => rfl | ⟨1, _⟩ => rfl)
theorem e_7 (r : Fin 800000) (k : Fin 96) : idx_main_v7 (ix2 r k) = ix2 (0 : Fin 1) k :=
  funext fun a => Fin.ext (by match a with | ⟨0, _⟩ => rfl | ⟨1, _⟩ => rfl)
theorem e_6 (k : Fin 96) : idx_main_v6 (ix2 (0 : Fin 1) k) = ix1 k :=
  funext fun a => Fin.ext (by match a with | ⟨0, _⟩ => rfl)
theorem e_13 (r : Fin 800000) (q : Fin 96) : idx_main_v13 (ix2 r q) = ix2 (0 : Fin 1) q :=
  funext fun a => Fin.ext (by match a with | ⟨0, _⟩ => rfl | ⟨1, _⟩ => rfl)
theorem e_12 (q : Fin 96) : idx_main_v12 (ix2 (0 : Fin 1) q) = ix1 q :=
  funext fun a => Fin.ext (by match a with | ⟨0, _⟩ => rfl)
theorem e_l27 (r : Fin 50000) (q k : Fin 96) : lidx_main_v27 (ix2 r q) k = ix2 r k :=
  funext fun a => Fin.ext (by match a with | ⟨0, _⟩ => rfl | ⟨1, _⟩ => rfl)
theorem e_r27 (r : Fin 50000) (q k : Fin 96) : ridx_main_v27 (ix2 r q) k = ix2 k q :=
  funext fun a => Fin.ext (by match a with | ⟨0, _⟩ => rfl | ⟨1, _⟩ => rfl)
theorem e_26 (k q : Fin 96) : idx_main_v26 (ix2 k q) = ix2 q k :=
  funext fun a => Fin.ext (by match a with | ⟨0, _⟩ => rfl | ⟨1, _⟩ => rfl)
theorem e_29 (r : Fin 50000) (q : Fin 96) : idx_main_v29 (ix2 r q) = ix2 (0 : Fin 1) q :=
  funext fun a => Fin.ext (by match a with | ⟨0, _⟩ => rfl | ⟨1, _⟩ => rfl)
theorem e_28 (q : Fin 96) : idx_main_v28 (ix2 (0 : Fin 1) q) = ix1 q :=
  funext fun a => Fin.ext (by match a with | ⟨0, _⟩ => rfl)
theorem e_l32 (r : Fin 50000) (q k : Fin 96) : lidx_main_v32 (ix2 r q) k = ix2 r k :=
  funext fun a => Fin.ext (by match a with | ⟨0, _⟩ => rfl | ⟨1, _⟩ => rfl)
theorem e_r32 (r : Fin 50000) (q k : Fin 96) : ridx_main_v32 (ix2 r q) k = ix2 k q :=
  funext fun a => Fin.ext (by match a with | ⟨0, _⟩ => rfl | ⟨1, _⟩ => rfl)
theorem e_31 (k q : Fin 96) : idx_main_v31 (ix2 k q) = ix2 q k :=
  funext fun a => Fin.ext (by match a with | ⟨0, _⟩ => rfl | ⟨1, _⟩ => rfl)
theorem e_35 (r : Fin 50000) (q : Fin 96) : idx_main_v35 (ix2 r q) = ix2 (0 : Fin 1) q :=
  funext fun a => Fin.ext (by match a with | ⟨0, _⟩ => rfl | ⟨1, _⟩ => rfl)
theorem e_34 (q : Fin 96) : idx_main_v34 (ix2 (0 : Fin 1) q) = ix1 q :=
  funext fun a => Fin.ext (by match a with | ⟨0, _⟩ => rfl)

/-! ## The two stages -/

/-- The message stage at edge r and feature q. -/
theorem msg_apply (x0 : (⟨S50000x96, .f32⟩ : BufTy).Contents (Elt Ideal)) (x1 : (⟨S2x800000, .i32⟩ : BufTy).Contents (Elt Ideal)) (x2 : (⟨S800000x17, .f32⟩ : BufTy).Contents (Elt Ideal)) (x3 : (⟨S96x17, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) (r : Fin 800000) (q : Fin 96) :
    val_main_v22 (F := Ideal) x0 x1 x2 x3 x4 x5 x6 (ix2 r q)
      = Cert.Spec.msgAt x2 x3 x4 x5 x6 (val_main_v21 (F := Ideal) x0 x1) r q := by
  rw [val_main_v22_apply, val_main_v14_apply, val_main_v11_apply, val_main_v13_apply, val_main_v12_apply]
  unfold Cert.Spec.msgAt
  simp only [e_l11, e_r11, val_main_v10_apply, e_10, val_main_v9_apply, val_main_v8_apply, val_main_v5_apply, e_l5, e_r5,
    val_main_v4_apply, e_4, val_main_v7_apply, e_7, val_main_v6_apply, e_6, val_main_call0_v0_apply, val_main_call0_cst_apply,
    e_13, e_12, Ideal.mulf_def, Ideal.addf_def, Ideal.maximumf_def, Ideal.ofBits_def, Ideal.ofBits_zero_f32]

/-- The last stage at node r and feature q, over the aggregated messages. -/
theorem out_apply (x0 : (⟨S50000x96, .f32⟩ : BufTy).Contents (Elt Ideal)) (x1 : (⟨S2x800000, .i32⟩ : BufTy).Contents (Elt Ideal)) (x2 : (⟨S800000x17, .f32⟩ : BufTy).Contents (Elt Ideal)) (x3 : (⟨S96x17, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) (x7 : (⟨S96x96, .f32⟩ : BufTy).Contents (Elt Ideal)) (x8 : (⟨S96, .f32⟩ : BufTy).Contents (Elt Ideal)) (x9 : (⟨S96x96, .f32⟩ : BufTy).Contents (Elt Ideal)) (x10 : (⟨S96, .f32⟩ : BufTy).Contents (Elt Ideal)) (r : Fin 50000) (q : Fin 96) :
    val_main_v37 (F := Ideal) x0 x1 x2 x3 x4 x5 x6 x7 x8 x9 x10 (ix2 r q)
      = Cert.Spec.outAt x0 (val_main_v25 (F := Ideal) x0 x1 x2 x3 x4 x5 x6) x7 x8 x9 x10 r q := by
  rw [val_main_v37_apply, val_main_v36_apply, val_main_v33_apply, val_main_v30_apply, val_main_v27_apply, val_main_v32_apply,
    val_main_v29_apply, val_main_v28_apply, val_main_v35_apply, val_main_v34_apply, val_main_call1_v0_apply, val_main_call1_cst_apply]
  unfold Cert.Spec.outAt
  simp only [e_l27, e_r27, val_main_v26_apply, e_26, e_29, e_28, e_l32, e_r32, val_main_v31_apply, e_31, e_35, e_34,
    Ideal.mulf_def, Ideal.addf_def, Ideal.maximumf_def, Ideal.ofBits_def, Ideal.ofBits_zero_f32]
  rw [add_assoc]

/-- The message stage as a whole array. -/
theorem msg_eq (x0 : (⟨S50000x96, .f32⟩ : BufTy).Contents (Elt Ideal)) (x1 : (⟨S2x800000, .i32⟩ : BufTy).Contents (Elt Ideal)) (x2 : (⟨S800000x17, .f32⟩ : BufTy).Contents (Elt Ideal)) (x3 : (⟨S96x17, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) :
    val_main_v22 (F := Ideal) x0 x1 x2 x3 x4 x5 x6 = Cert.Spec.msg x2 x3 x4 x5 x6 (val_main_v21 (F := Ideal) x0 x1) := by
  funext i
  obtain ⟨r, q, rfl⟩ : ∃ (r : Fin 800000) (q : Fin 96), i = ix2 r q := ⟨i 0, i 1, eq_ix2 i⟩
  exact msg_apply x0 x1 x2 x3 x4 x5 x6 r q

/-- The result as a whole array. -/
theorem out_eq (x0 : (⟨S50000x96, .f32⟩ : BufTy).Contents (Elt Ideal)) (x1 : (⟨S2x800000, .i32⟩ : BufTy).Contents (Elt Ideal)) (x2 : (⟨S800000x17, .f32⟩ : BufTy).Contents (Elt Ideal)) (x3 : (⟨S96x17, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) (x7 : (⟨S96x96, .f32⟩ : BufTy).Contents (Elt Ideal)) (x8 : (⟨S96, .f32⟩ : BufTy).Contents (Elt Ideal)) (x9 : (⟨S96x96, .f32⟩ : BufTy).Contents (Elt Ideal)) (x10 : (⟨S96, .f32⟩ : BufTy).Contents (Elt Ideal)) :
    val_main_v37 (F := Ideal) x0 x1 x2 x3 x4 x5 x6 x7 x8 x9 x10
      = Cert.Spec.out x0 (val_main_v25 (F := Ideal) x0 x1 x2 x3 x4 x5 x6) x7 x8 x9 x10 := by
  funext i
  obtain ⟨r, q, rfl⟩ : ∃ (r : Fin 50000) (q : Fin 96), i = ix2 r q := ⟨i 0, i 1, eq_ix2 i⟩
  exact out_apply x0 x1 x2 x3 x4 x5 x6 x7 x8 x9 x10 r q

end Cert.RefBridge
end
-- ==== Proof.Bridge.lean ====
/-
  The two programs share their irregular parts.

  Both wrap the source indices the same way, gather the rows of x at them with the same dimension numbers, and add the
  messages into a zero array at the same destination rows with the same dimension numbers.  So once the fill on the
  kernel's side is known never to fire, the reference's aggregate is, term for term, the kernel's: the two are the
  same scatter-add of the same message function of the same gathered rows.
-/
import proofs.«412587_j39737037423416_1_alg».proof.Proof.TakeRows
import proofs.«412587_j39737037423416_1_alg».proof.Proof.RefSpec

noncomputable section

open Idealize.ShloMosaic Idealize.ShloMosaic.ValueIdx

namespace Cert.Bridge
open Cert.KernelIdeal Cert.KernelIdeal.Gen Cert.KernelIdeal.Take

seal Host.gather in
/-- The reference's gather stage is the gather at the kernel's wrapped indices. -/
theorem gather_eq (a0 : FVec Ideal S50000x96 .f32) (a1 : IVec S2x800000 32) :
    Cert.ReferenceIdeal.Read.val_main_v21 (F := Ideal) a0 a1
      = Host.gather gather_S50000x96_S800000x1_S800000x96_1_0_n_n_0_1_196 a0 (wrapIdx (srcOf a1)) := rfl

seal Host.scatterAdd Host.gather in
/-- The reference's aggregate, when every source index lies in [-50000, 50000). -/
theorem agg_eq (a0 : FVec Ideal S50000x96 .f32) (a1 : IVec S2x800000 32) (a2 : FVec Ideal S800000x17 .f32) (a3 : FVec Ideal S96x17 .f32)
    (a4 : FVec Ideal S96 .f32) (a5 : FVec Ideal S96x96 .f32) (a6 : FVec Ideal S96 .f32)
    (h : ∀ e : S800000.Idx, IntOp.cmpi .sge (srcOf a1 e) 4294917296#32 = 1#1 ∧ IntOp.cmpi .slt (srcOf a1 e) 50000#32 = 1#1) :
    Cert.ReferenceIdeal.Read.val_main_v25 (F := Ideal) a0 a1 a2 a3 a4 a5 a6
      = Host.scatterAdd (F := Ideal) scatter_S50000x96_S800000x1_S800000x96_1_0_0_1
          (broadcastInDim S50000x96 ![] bcast_S_S50000x96 (constant (F := Ideal) S_ .f32 0x00000000#32))
          (broadcastInDim S800000x1 ![0] bcast_S800000_S800000x1_0 (dstOf a1))
          (Cert.Spec.msg a2 a3 a4 a5 a6 (takeFill a0 (srcOf a1))) := by
  rw [takeFill_eq_gather a0 (srcOf a1) h, ← gather_eq a0 a1, ← Cert.RefBridge.msg_eq a0 a1 a2 a3 a4 a5 a6]
  rfl

end Cert.Bridge
end
-- ==== Proof.PreRead.lean ====
/-
  What the precondition says about the source indices.

  The stated precondition is a conjunction whose last conjunct is "every source index s satisfies -50000 <= s and
  s < 50000", printed as an and-reduce over the edges of the two signed comparisons.  The conjunction being 1 makes
  that reduce 1, and an and-reduce from 1 that comes out 1 met a 1 at every edge.
-/
import proofs.«412587_j39737037423416_1_alg».proof.Pre_finite_inputs
import proofs.«412587_j39737037423416_1_alg».proof.Proof.Gen.Pre_finite_inputs
import Idealize.ShloMosaic.Lib.ValueIdx
import Idealize.ShloMosaic.Lib.ReduceAll
import Idealize.ShloMosaic.PureOps.Ideal

noncomputable section

open Idealize.ShloMosaic Idealize.ShloMosaic.ValueIdx

namespace Cert.PreDecode
open Cert.Pre_finite_inputs Cert.Pre_finite_inputs.Gen

instance : Subsingleton S_.Idx := ⟨fun a b => funext fun d => d.elim0⟩

/-- The last conjunct, read off the last part of the printed predicate. -/
theorem part3_src (a1 : IVec S2x800000 32) (v48 : IVec S_ 1) (src : IVec S800000 32)
    (h : fn_part3 (F := Ideal) a1 v48 src (constantI S_ 32 4294917296#32) ix0 = 1#1) (e : S800000.Idx) :
    IntOp.cmpi .sge (src e) 4294917296#32 = 1#1
      ∧ IntOp.cmpi .slt (shapeCast S800000 (extractStridedSlice S1x800000 ![0, 0] a1 slices_S2x800000_S1x800000_0_0) shapeCasts_S1x800000_S800000 e) 50000#32 = 1#1 := by
  have h1 := (IntOp.andi_eq_one.1 h).2
  have h2 := Host.reduce_andi_all _ _ _ _ ix0 h1 e
  exact IntOp.andi_eq_one.1 (show IntOp.andi (IntOp.cmpi .sge (src e) 4294917296#32)
    (IntOp.cmpi .slt (shapeCast S800000 (extractStridedSlice S1x800000 ![0, 0] a1 slices_S2x800000_S1x800000_0_0) shapeCasts_S1x800000_S800000 e) 50000#32) = 1#1 from h2)

/-- Under the precondition every source index lies in [-50000, 50000). -/
theorem src_in_range (a0 : FVec Ideal S50000x96 .f32) (a1 : IVec S2x800000 32) (a2 : FVec Ideal S800000x17 .f32) (a3 : FVec Ideal S96x17 .f32)
    (a4 : FVec Ideal S96 .f32) (a5 : FVec Ideal S96x96 .f32) (a6 : FVec Ideal S96 .f32) (a7 : FVec Ideal S96x96 .f32) (a8 : FVec Ideal S96 .f32)
    (a9 : FVec Ideal S96x96 .f32) (a10 : FVec Ideal S96 .f32)
    (h : fn (F := Ideal) a0 a1 a2 a3 a4 a5 a6 a7 a8 a9 a10 = fun _ => 1#1) (e : S800000.Idx) :
    IntOp.cmpi .sge (shapeCast S800000 (extractStridedSlice S1x800000 ![0, 0] a1 slices_S2x800000_S1x800000_0_0) shapeCasts_S1x800000_S800000 e) 4294917296#32 = 1#1
      ∧ IntOp.cmpi .slt (shapeCast S800000 (extractStridedSlice S1x800000 ![0, 0] a1 slices_S2x800000_S1x800000_0_0) shapeCasts_S1x800000_S800000 e) 50000#32 = 1#1 := by
  have h0 : fn_part3 (F := Ideal) a1 _ (shapeCast S800000 (extractStridedSlice S1x800000 ![0, 0] a1 slices_S2x800000_S1x800000_0_0) shapeCasts_S1x800000_S800000)
      (constantI S_ 32 4294917296#32) ix0 = 1#1 := congrFun h ix0
  exact part3_src a1 _ _ h0 e

end Cert.PreDecode
end
-- ==== Proof.lean ====
/-
  One layer of edge-conditioned message passing on a graph of 50000 nodes and 800000 edges, 96 features a node and
  17 attributes an edge: the kernel's program against the plain reference, over the extended reals.

  Both compute, for every edge e with source s(e) and destination d(e),
      msg(e, q) = ( sum_k relu( sum_l ea(e,l) W1(k,l) + b1(k) ) W2(q,k) + b2(q) ) * x(s(e), q),
  add the messages up at their destinations, agg(n, .) = sum over the edges e with d(e) = n of msg(e, .), and return
      out(n, q) = relu( ( sum_k x(n,k) Ws(q,k) + bs(q) ) + ( sum_k agg(n,k) Wn(q,k) + bn(q) ) ).
  The kernel's program does the two dense parts in two blocked kernels (160 blocks of 5000 edges, 10 blocks of 5000
  nodes), each of whose blocks depends only on the same rows of its inputs, so each region's output array is one
  function of its input arrays; the row gather and the scatter-add stay on the host in both programs, with the same
  dimension numbers, and are carried as the same terms on both sides.  Rounding the matrix operands to a narrower
  format is the identity on the extended reals, a product accumulated from zero is the plain sum, and the reference's
  bracketing ((A + bs) + B) + bn of the last four terms is the kernel's (A + bs) + (B + bn) by associativity: no
  finiteness of the inputs is used.

  The one place the programs differ is a source index outside the table: the kernel's gather fills such a row with
  a fill value where the reference's indexing reads a clamped row.  The precondition therefore also asks that every
  source index s satisfy -50000 <= s < 50000 (the range in which indexing a table of 50000 rows is defined, a negative
  index counting from the end); under it the kernel's range test passes at every edge and its gather is the
  reference's.  The destination indices need no condition: both programs drop the same out-of-range updates.
-/
import proofs.«412587_j39737037423416_1_alg».proof.Defs
import proofs.«412587_j39737037423416_1_alg».proof.Proof.Gen.Kernel
import proofs.«412587_j39737037423416_1_alg».proof.Proof.Gen.Kernel.Frame
import proofs.«412587_j39737037423416_1_alg».proof.Proof.Gen.KernelIdeal
import proofs.«412587_j39737037423416_1_alg».proof.Proof.Gen.KernelIdeal.Frame
import proofs.«412587_j39737037423416_1_alg».proof.Proof.Gen.ReferenceIdeal
import proofs.«412587_j39737037423416_1_alg».proof.Proof.Gen.ReferenceIdeal.Run
import proofs.«412587_j39737037423416_1_alg».proof.Proof.Gen.ReferenceIdeal.Read
import proofs.«412587_j39737037423416_1_alg».proof.Proof.Gen.Pre_finite_inputs
import proofs.«412587_j39737037423416_1_alg».proof.Proof.KernelRun
import proofs.«412587_j39737037423416_1_alg».proof.Proof.KernelResult
import proofs.«412587_j39737037423416_1_alg».proof.Proof.Bridge
import proofs.«412587_j39737037423416_1_alg».proof.Proof.PreRead
import Idealize.ShloMosaic.Adequacy
import Idealize.ShloMosaic.Init

noncomputable section

namespace Cert.Proof

open Idealize.ShloMosaic Idealize.ShloMosaic.TcCoe Idealize.SL.Sem

/-- The word-level kernel program runs and leaves its arguments. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the layer's output of the arguments: the kernel's program by its two regions' whole-array
    functions walked back through the host operations, the reference by its stages read at an index; the aggregates
    agree because, with every source index in range, the kernel's gather never fills. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)) (Cert.KernelIdeal.Result.aggregated m c) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Result.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v37_eq _ _ _ _ _ _ _ _ _ _ _).trans ?_
    refine (Cert.RefBridge.out_eq _ _ _ _ _ _ _ _ _ _ _).trans ?_
    obtain ⟨g0, g1, g2, g3, g4, g5, g6, g7, g8, g9, g10⟩ := hagree c
    rw [g0, g1, g2, g3, g4, g5, g6, g7, g8, g9, g10]
    rw [Cert.Bridge.agg_eq _ _ _ _ _ _ _ (fun e => Cert.PreDecode.src_in_range _ _ _ _ _ _ _ _ _ _ _ (hpre c) e)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
